-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768 : Shape := ⟨1, ![32768]⟩
abbrev S32768x512 : Shape := ⟨2, ![32768, 512]⟩
abbrev S1000x512 : Shape := ⟨2, ![1000, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S32768 : S_.BroadcastsInDim S32768 (![] : Fin 0 → Fin S32768.rank)
  reducesTo_S32768_S_d0 : S32768.ReducesTo [0] S_

variable [Facts]

def fn {F : FTy → Type} [FloatOps F] (main_arg0 : IVec S32768 32) (main_arg1 : FVec F S32768x512 .f32) (main_arg2 : FVec F S1000x512 .f32) : IVec S_ 1 :=
  let main_v0 : FVec F S32768x512 .f32 := Host.absf main_arg1
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S1000x512 .f32 := Host.absf main_arg2
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_c_2 : IVec S_ 32 := constantI S_ 32 0#32
  let main_v9 : IVec S32768 32 := broadcastInDim S32768 ![] bcast_S_S32768 main_c_2
  let main_v10 : IVec S32768 1 := cmpi .sge main_arg0 main_v9
  let main_c_3 : IVec S_ 32 := constantI S_ 32 1000#32
  let main_v11 : IVec S32768 32 := broadcastInDim S32768 ![] bcast_S_S32768 main_c_3
  let main_v12 : IVec S32768 1 := cmpi .slt main_arg0 main_v11
  let main_v13 : IVec S32768 1 := andi main_v10 main_v12
  let main_c_4 : IVec S_ 1 := constantI S_ 1 1#1
  let main_v14 : IVec S_ 1 := (fun x v => Host.reduce IntOp.andi x v reducesTo_S32768_S_d0 h_S_) main_v13 main_c_4
  let main_v15 : IVec S_ 1 := andi main_v8 main_v14
  main_v15
-- ==== Kernel.lean ====
abbrev S32768 : Shape := ⟨1, ![32768]⟩
abbrev S32768x512 : Shape := ⟨2, ![32768, 512]⟩
abbrev S1000x512 : Shape := ⟨2, ![1000, 512]⟩
abbrev S256x128 : Shape := ⟨2, ![256, 128]⟩
abbrev S2x1x128 : Shape := ⟨3, ![2, 1, 128]⟩
abbrev S8x128 : Shape := ⟨2, ![8, 128]⟩
abbrev S1024x512 : Shape := ⟨2, ![1024, 512]⟩
abbrev S1x1x128 : Shape := ⟨3, ![1, 1, 128]⟩
abbrev S1x1 : Shape := ⟨2, ![1, 1]⟩
abbrev S8x128x1 : Shape := ⟨3, ![8, 128, 1]⟩
abbrev S8x128x1000 : Shape := ⟨3, ![8, 128, 1000]⟩
abbrev S1024x1000 : Shape := ⟨2, ![1024, 1000]⟩
abbrev S1024 : Shape := ⟨1, ![1024]⟩
abbrev S1024x1 : Shape := ⟨2, ![1024, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩
abbrev S1000 : Shape := ⟨1, ![1000]⟩
abbrev S1000x1 : Shape := ⟨2, ![1000, 1]⟩
abbrev S512x1000 : Shape := ⟨2, ![512, 1000]⟩
abbrev S1000x1000 : Shape := ⟨2, ![1000, 1000]⟩

abbrev nBuf : Space → Nat
  | .hbm => 15
  | .vmem => 10
  | .smem => 0
  | _ => 0

abbrev bufTy : (tb : Table) → Fin (tcTables nBuf tb) → BufTy
  | .hbm, ⟨0, _⟩ => ⟨S32768, .i32⟩
  | .hbm, ⟨1, _⟩ => ⟨S32768x512, .f32⟩
  | .hbm, ⟨2, _⟩ => ⟨S1000x512, .f32⟩
  | .hbm, ⟨3, _⟩ => ⟨S256x128, .i32⟩
  | .hbm, ⟨4, _⟩ => ⟨S1000x512, .bf16⟩
  | .hbm, ⟨5, _⟩ => ⟨S2x1x128, .f32⟩
  | .hbm, ⟨6, _⟩ => ⟨S2x1x1, .f32⟩
  | .hbm, ⟨7, _⟩ => ⟨S2, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S8x128, .i32⟩
  | .local _ .vmem, ⟨1, _⟩ => ⟨S8x128, .i32⟩
  | .local _ .vmem, ⟨2, _⟩ => ⟨S1024x512, .f32⟩
  | .local _ .vmem, ⟨3, _⟩ => ⟨S1024x512, .f32⟩
  | .local _ .vmem, ⟨4, _⟩ => ⟨S1000x512, .bf16⟩
  | .local _ .vmem, ⟨5, _⟩ => ⟨S1x1x128, .f32⟩
  | .local _ .vmem, ⟨6, _⟩ => ⟨S1x1x128, .f32⟩
  | .local _ .vmem, ⟨7, _⟩ => ⟨S1x1, .f32⟩
  | .local _ .vmem, ⟨8, _⟩ => ⟨S1000x512, .f32⟩
  | .local _ .vmem, ⟨9, _⟩ => ⟨S1x1, .f32⟩
  | _, _ => ⟨S32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem1_0 : DmaSem sig := 8

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1000x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1000x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  shapeCasts_S32768_S256x128 : S32768.ShapeCasts S256x128
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S8x128x1 : S8x128.ShapeCasts S8x128x1
  iota_S8x128x1000_d2_w32 : S8x128x1000.Iotas .tc 32 [2]
  broadcasts_S8x128x1_S8x128x1000 : S8x128x1.Broadcasts S8x128x1000
  natLt_1_32 : 1 < 32
  shapeCasts_S8x128x1000_S1024x1000 : S8x128x1000.ShapeCasts S1024x1000
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  reduces_S1000x512_S1000 : S1000x512.Reduces [1] S1000
  shapeCasts_S1000_S1000x1 : S1000.ShapeCasts S1000x1
  broadcasts_S1000x1_S1000x512 : S1000x1.Broadcasts S1000x512
  transposes_S1000x512_p1_0_S512x1000 : S1000x512.Transposes [1, 0] S512x1000
  iota_S1000x1000_d0_w32 : S1000x1000.Iotas .tc 32 [0]
  iota_S1000x1000_d1_w32 : S1000x1000.Iotas .tc 32 [1]
  reduces_S1000x1000_S1000 : S1000x1000.Reduces [1] S1000
  reduces_S1000x1_S1 : S1000x1.Reduces [0] S1
  shapeCasts_S1x1_S_ : S1x1.ShapeCasts S_
  dot_S1024x1000_S1000x512_S1024x512_1_0_0_1_n_n_wf : DotDims.WF S1024x1000 S1000x512 S1024x512 [1] [0] [0] [1] [] []
  dot_S1000x512_S512x1000_S1000x1000_1_0_0_1_n_n_wf : DotDims.WF S1000x512 S512x1000 S1000x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S256x128.size a
  hwx0_0 : ∀ i : grid0.Coords, EltTy.bits .i32 = 32 ∨ (Rect.block (s := S256x128) S8x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S1000x512.size a
  hwx0_2 : ∀ i : grid0.Coords, EltTy.bits .bf16 = 32 ∨ (Rect.block (s := S1000x512) S1000x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S1000x512.size a
  hwx1_0 : ∀ i : grid1.Coords, EltTy.bits .f32 = 32 ∨ (Rect.block (s := S1000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)

variable [Facts₀]

def dot_S1024x1000_S1000x512_S1024x512_1_0_0_1_n_n : DotDims S1024x1000 S1000x512 S1024x512 where
  lhsContracting := [1]
  rhsContracting := [0]
  lhsNonContracting := [0]
  rhsNonContracting := [1]
  lhsBatch := []
  rhsBatch := []
  wf := dot_S1024x1000_S1000x512_S1024x512_1_0_0_1_n_n_wf
def dot_S1000x512_S512x1000_S1000x1000_1_0_0_1_n_n : DotDims S1000x512 S512x1000 S1000x1000 where
  lhsContracting := [1]
  rhsContracting := [0]
  lhsNonContracting := [0]
  rhsNonContracting := [1]
  lhsBatch := []
  rhsBatch := []
  wf := dot_S1000x512_S512x1000_S1000x1000_1_0_0_1_n_n_wf

abbrev win0_0 : Pipeline.Window sig grid0 :=
  Pipeline.Window.ofSpec (Memref.whole main_v0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S1000x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S32768 : Shape := ⟨1, ![32768]⟩
abbrev S32768x512 : Shape := ⟨2, ![32768, 512]⟩
abbrev S1000x512 : Shape := ⟨2, ![1000, 512]⟩
abbrev S_ : Shape := ⟨0, ![]⟩
abbrev S32768x1 : Shape := ⟨2, ![32768, 1]⟩
abbrev S1000 : Shape := ⟨1, ![1000]⟩
abbrev S1000x1 : Shape := ⟨2, ![1000, 1]⟩
abbrev S512x1000 : Shape := ⟨2, ![512, 1000]⟩
abbrev S1000x1000 : Shape := ⟨2, ![1000, 1000]⟩

abbrev nBuf : Space → Nat
  | .hbm => 51
  | .vmem => 0
  | .smem => 0
  | _ => 0

abbrev bufTy : (tb : Table) → Fin (tcTables nBuf tb) → BufTy
  | .hbm, ⟨0, _⟩ => ⟨S32768, .i32⟩
  | .hbm, ⟨1, _⟩ => ⟨S32768x512, .f32⟩
  | .hbm, ⟨2, _⟩ => ⟨S1000x512, .f32⟩
  | .hbm, ⟨3, _⟩ => ⟨S_, .i32⟩
  | .hbm, ⟨4, _⟩ => ⟨S32768, .i32⟩
  | .hbm, ⟨5, _⟩ => ⟨S32768, .i1⟩
  | .hbm, ⟨6, _⟩ => ⟨S_, .i32⟩
  | .hbm, ⟨7, _⟩ => ⟨S32768, .i32⟩
  | .hbm, ⟨8, _⟩ => ⟨S32768, .i32⟩
  | .hbm, ⟨9, _⟩ => ⟨S32768, .i32⟩
  | .hbm, ⟨10, _⟩ => ⟨S32768x1, .i32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1000x512, .f32⟩
  | .hbm, ⟨21, _⟩ => ⟨S_, .f32⟩
  | .hbm, ⟨22, _⟩ => ⟨S1000, .f32⟩
  | .hbm, ⟨23, _⟩ => ⟨S1000x1, .f32⟩
  | .hbm, ⟨24, _⟩ => ⟨S1000x1, .f32⟩
  | .hbm, ⟨25, _⟩ => ⟨S_, .f32⟩
  | .hbm, ⟨26, _⟩ => ⟨S1000x1, .f32⟩
  | .hbm, ⟨27, _⟩ => ⟨S1000x1, .f32⟩
  | .hbm, ⟨28, _⟩ => ⟨S1000x512, .f32⟩
  | .hbm, ⟨29, _⟩ => ⟨S1000x512, .f32⟩
  | .hbm, ⟨30, _⟩ => ⟨S512x1000, .f32⟩
  | .hbm, ⟨31, _⟩ => ⟨S1000x1000, .f32⟩
  | .hbm, ⟨32, _⟩ => ⟨S1000x1000, .i32⟩
  | .hbm, ⟨33, _⟩ => ⟨S1000x1000, .i32⟩
  | .hbm, ⟨34, _⟩ => ⟨S_, .i32⟩
  | .hbm, ⟨35, _⟩ => ⟨S1000x1000, .i32⟩
  | .hbm, ⟨36, _⟩ => ⟨S1000x1000, .i32⟩
  | .hbm, ⟨37, _⟩ => ⟨S1000x1000, .i1⟩
  | .hbm, ⟨38, _⟩ => ⟨S1000x1000, .i1⟩
  | .hbm, ⟨39, _⟩ => ⟨S_, .f32⟩
  | .hbm, ⟨40, _⟩ => ⟨S1000x1000, .f32⟩
  | .hbm, ⟨41, _⟩ => ⟨S1000x1000, .f32⟩
  | .hbm, ⟨42, _⟩ => ⟨S_, .f32⟩
  | .hbm, ⟨43, _⟩ => ⟨S_, .f32⟩
  | .hbm, ⟨44, _⟩ => ⟨S1000x1000, .f32⟩
  | .hbm, ⟨45, _⟩ => ⟨S1000x1000, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_call1_v0 : Ref sig .tc := ⟨.hbm, 43, rfl⟩
abbrev main_call1_v1 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  reducesTo_S32768x512_S_d0_1 : S32768x512.ReducesTo [0, 1] S_
  h_S_ : 0 < S_.numel
  reducesTo_S1000x512_S1000_d1 : S1000x512.ReducesTo [1] S1000
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x512_0_1 : S1000x1.BroadcastsInDim S1000x512 (![0, 1] : Fin 2 → Fin S1000x512.rank)
  transposes_S1000x512_S512x1000_1_0 : S1000x512.Transposes [1, 0] S512x1000
  bcast_S_S1000x1000 : S_.BroadcastsInDim S1000x1000 (![] : Fin 0 → Fin S1000x1000.rank)
  reducesTo_S1000x1000_S_d0_1 : S1000x1000.ReducesTo [0, 1] S_
  gather_S1000x512_S32768x1_S32768x512_1_0_n_n_0_1_1512_wf : GatherDims.WF S1000x512 S32768x1 S32768x512 [1] [0] [] [0] [] 1 ![1, 512]
  dot_S1000x512_S512x1000_S1000x1000_1_0_0_1_n_n_wf : DotDims.WF S1000x512 S512x1000 S1000x1000 [1] [0] [0] [1] [] []

variable [Facts₀]

def gather_S1000x512_S32768x1_S32768x512_1_0_n_n_0_1_1512 : GatherDims S1000x512 S32768x1 S32768x512 where
  offsetDims := [1]
  collapsedSliceDims := [0]
  operandBatchingDims := []
  startIndicesBatchingDims := []
  startIndexMap := [0]
  indexVectorDim := 1
  sliceSizes := ![1, 512]
  wf := gather_S1000x512_S32768x1_S32768x512_1_0_n_n_0_1_1512_wf
def dot_S1000x512_S512x1000_S1000x1000_1_0_0_1_n_n : DotDims S1000x512 S512x1000 S1000x1000 where
  lhsContracting := [1]
  rhsContracting := [0]
  lhsNonContracting := [0]
  rhsNonContracting := [1]
  lhsBatch := []
  rhsBatch := []
  wf := dot_S1000x512_S512x1000_S1000x1000_1_0_0_1_n_n_wf

class Facts : Prop extends Facts₀ where

variable [Facts]
-- ==== Proof.WordCenterRuns.lean ====
/-
  The first pallas_call (the summed squared distances to the class centres): what its runs share, and the body's run in
  each of its three cases.

  The grid is 2 × 16: point t is core t / 16, step t % 16. The body has two conditionals on the step: at step 0 it stores
  zero into its 1×1 scratch before anything else; at step 15 it stores the scaled scratch, spread over 128 lanes, into
  the output block. Between them, at every step, it loads the 8×128 label block, the 1000×512 centres and the 1024×512
  feature block, and stores into the scratch the scratch's value plus the tile's summed squared distances. So a point is
  in one of three cases — the first step (the scratch reset, the output untouched), a middle step (the scratch added to,
  the output untouched), the last step (the scratch added to, the output stored) — and in each the body's run leaves
  the scratch, and at the last step the output, with pieces written that the run itself names.
-/
import proofs.«403618_j12678743457990_2_alg».proof.Proof.Gen.Kernel.Launch
import proofs.«403618_j12678743457990_2_alg».proof.Proof.Gen.Kernel.Skeleton
import proofs.«403618_j12678743457990_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- The condition of the first conditional: the step is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the second conditional: the step is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last step the output window is idle (the body stores nothing into it) and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last step it is live. -/
theorem liveAt0_3 : ∀ t : Fin cfg0.N, cond0_1 (grid0.coords t) → cfg0.idle 3 (grid0.coords t) = false := by decide +kernel

/-! ## The staging and scratch buffers the body is called with -/

/-- One staging buffer of the output window, through which its contents are stated. -/
abbrev VO0_3 : View sig .tc .vmem S1x1x128 .f32 := (Memref.whole cc0_stg3_0 : Memref sig .tc .vmem S1x1x128 .f32).view
/-- Each window's current staging buffer at point `t`, as the pipeline passes it, and that it is a whole buffer. -/
abbrev ms0_0 (t : Fin cfg0.N) : Memref sig .tc .vmem S8x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
/-- The 1×1 scratch the body carries from step to step: a whole scoped buffer of the kernel's own. -/
abbrev scM0_0 : Memref sig .tc .vmem S1x1 .f32 := Memref.whole cc0_scratch0
abbrev VS0_0 : View sig .tc .vmem S1x1 .f32 := scM0_0.view

/-- The other scoped buffers of the core that are no staging buffer of this pallas_call (the second pallas_call's two):
    each whole at some contents, untouched here. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f))

/-- The region's plain invariant, conjunct by conjunct: the scratch at some contents, the other scoped buffers, the
    generator register at some state. -/
theorem PhiA0_eq (c : Dev nD) :
    (Pipeline.ΦA spec0 c : sProp 𝕄)
      = iprop(iprop((∃ d, owns (c : Thread nD τ) scM0_0 fullShare d) ∗ otherScoped (F := F) c) ∗ (∃ r, prngReg c r)) := by
  unfold Pipeline.ΦA otherScoped; rw [scopedRest0_eq]; simp only [scM0_0, owns_whole]; try rfl

variable (m : (ℓ : Loc nD τ sig) → Buf (Elt F) ℓ)

/-! ## The body's run, case by case -/

set_option maxHeartbeats 1000000 in
/-- THE FIRST STEP (the first conditional taken, the second not). With the three inputs' buffers at `x0`, `x1`, `x2`, the
    output's at `xi3` and the scratch at anything, the body runs to the end holding the inputs' and the output's buffers
    as they were and the scratch with the pieces `LS0` written, which the run names. -/
noncomputable def kernelRun0_A (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : cond0_0 i) (hc1 : ¬cond0_1 i)
    (x0 : Vec F S8x128 .i32) (x1 : Vec F S1024x512 .f32) (x2 : Vec F S1000x512 .bf16) :
    { LS0 : List (View.Piece (Elt F) S1x1 .f32) //
      ∀ (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__center_loss_kernel i arg2 harg2 arg3 harg3 arg4 harg4 arg5 harg5 arg6 harg6) K } := by
  refine ⟨?_, fun xi3 E K => ?run⟩
  case run =>
    simp only [cc0__center_loss_kernel_eq_skeleton]; unfold cc0__center_loss_kernel_skel
    unfold owns
    iintro ⟨⟨%f0, %hf0, H0⟩, ⟨%f1, %hf1, H1⟩, ⟨%f2, %hf2, H2⟩, ⟨%f3, %hf3, H3⟩, ⟨%ds, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- A MIDDLE STEP (neither conditional taken). The scratch comes in at `xs0`, what the step before left. -/
noncomputable def kernelRun0_B (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : ¬cond0_1 i)
    (x0 : Vec F S8x128 .i32) (x1 : Vec F S1024x512 .f32) (x2 : Vec F S1000x512 .bf16) (xs0 : Vec F S1x1 .f32) :
    { LS0 : List (View.Piece (Elt F) S1x1 .f32) //
      ∀ (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__center_loss_kernel i arg2 harg2 arg3 harg3 arg4 harg4 arg5 harg5 arg6 harg6) K } := by
  refine ⟨?_, fun xi3 E K => ?run⟩
  case run =>
    simp only [cc0__center_loss_kernel_eq_skeleton]; unfold cc0__center_loss_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- THE LAST STEP (the second conditional taken, the first not). The scratch comes in at `xs0`; the output's buffer, at
    anything, ends with the pieces `L3` written. -/
noncomputable def kernelRun0_C (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : cond0_1 i)
    (x0 : Vec F S8x128 .i32) (x1 : Vec F S1024x512 .f32) (x2 : Vec F S1000x512 .bf16) (xs0 : Vec F S1x1 .f32) :
    Σ' (L3 : List (View.Piece (Elt F) S1x1x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__center_loss_kernel i arg2 harg2 arg3 harg3 arg4 harg4 arg5 harg5 arg6 harg6) K } := by
  refine ⟨?_, ?_, fun E K => ?run⟩
  case run =>
    simp only [cc0__center_loss_kernel_eq_skeleton]; unfold cc0__center_loss_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.Kernel.Hand

end
-- ==== Proof.WordCenterRegion.lean ====
/-
  The first pallas_call as a pipeline: what its output buffer and its scratch hold after each point, the invariant that
  carries the scratch from point to point, the proof data, and the body obligation.

  After point n the scratch holds what the point's case leaves in it: at a first step the case's pieces over nothing, at a
  later step the case's pieces given what point n − 1 left. The output's buffer is stored only at a last step; at the other
  points the window is idle and not written back, and what is recorded for it there is a placeholder nothing reads. The
  invariant before the first point is the plain one (the scratch at anything); before a later point it holds the scratch
  at what the point before left, beside the other scoped buffers and the generator register.
-/
import proofs.«403618_j12678743457990_2_alg».proof.Proof.Gen.Kernel.Launch
import proofs.«403618_j12678743457990_2_alg».proof.Proof.Gen.Kernel.Skeleton
import proofs.«403618_j12678743457990_2_alg».proof.Proof.Gen.Kernel.Points
import proofs.«403618_j12678743457990_2_alg».proof.Proof.WordCenterRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The first step's pieces cover the 1×1 scratch. -/
theorem scover0_A (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : cond0_0 i) (hc1 : ¬cond0_1 i) (x0 : Vec F S8x128 .i32) (x1 : Vec F S1024x512 .f32) (x2 : Vec F S1000x512 .bf16) (y : S1x1.Idx) :
    ∃ pc ∈ (kernelRun0_A (F := F) c i arg2 harg2 arg3 harg3 arg4 harg4 arg5 harg5 arg6 harg6 hc0 hc1 x0 x1 x2).1, y ∈ pc.1.set :=
  View.cover_of_tiledL (kernelRun0_A (F := F) c i arg2 harg2 arg3 harg3 arg4 harg4 arg5 harg5 arg6 harg6 hc0 hc1 x0 x1 x2).1 S1x1.size (by sl_kernel_rfl) y
/-- What the first step leaves in the scratch. -/
def sout0_A (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : cond0_0 i) (hc1 : ¬cond0_1 i) (x0 : Vec F S8x128 .i32) (x1 : Vec F S1024x512 .f32) (x2 : Vec F S1000x512 .bf16) : Vec F S1x1 .f32 :=
  VS0_0.read (Elt F) (VS0_0.writes (Elt F) VS0_0.junk (kernelRun0_A (F := F) c i arg2 harg2 arg3 harg3 arg4 harg4 arg5 harg5 arg6 harg6 hc0 hc1 x0 x1 x2).1)

/-- A middle step's pieces cover the scratch. -/
theorem scover0_B (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : ¬cond0_1 i) (x0 : Vec F S8x128 .i32) (x1 : Vec F S1024x512 .f32) (x2 : Vec F S1000x512 .bf16) (xs0 : Vec F S1x1 .f32) (y : S1x1.Idx) :
    ∃ pc ∈ (kernelRun0_B (F := F) c i arg2 harg2 arg3 harg3 arg4 harg4 arg5 harg5 arg6 harg6 hc0 hc1 x0 x1 x2 xs0).1, y ∈ pc.1.set :=
  View.cover_of_tiledL (kernelRun0_B (F := F) c i arg2 harg2 arg3 harg3 arg4 harg4 arg5 harg5 arg6 harg6 hc0 hc1 x0 x1 x2 xs0).1 S1x1.size (by sl_kernel_rfl) y
/-- What a middle step leaves in the scratch, given what the step before left. -/
def sout0_B (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : ¬cond0_1 i) (x0 : Vec F S8x128 .i32) (x1 : Vec F S1024x512 .f32) (x2 : Vec F S1000x512 .bf16) (xs0 : Vec F S1x1 .f32) : Vec F S1x1 .f32 :=
  VS0_0.read (Elt F) (VS0_0.writes (Elt F) VS0_0.junk (kernelRun0_B (F := F) c i arg2 harg2 arg3 harg3 arg4 harg4 arg5 harg5 arg6 harg6 hc0 hc1 x0 x1 x2 xs0).1)

/-- The last step's pieces cover the output's 1×1×128 block, -/
theorem cover0_C (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : cond0_1 i) (x0 : Vec F S8x128 .i32) (x1 : Vec F S1024x512 .f32) (x2 : Vec F S1000x512 .bf16) (xs0 : Vec F S1x1 .f32) (y : S1x1x128.Idx) :
    ∃ pc ∈ (kernelRun0_C (F := F) c i arg2 harg2 arg3 harg3 arg4 harg4 arg5 harg5 arg6 harg6 hc0 hc1 x0 x1 x2 xs0).1, y ∈ pc.1.set :=
  View.cover_of_tiledL (kernelRun0_C (F := F) c i arg2 harg2 arg3 harg3 arg4 harg4 arg5 harg5 arg6 harg6 hc0 hc1 x0 x1 x2 xs0).1 S1x1x128.size (by sl_kernel_rfl) y
/-- and the scratch. -/
theorem scover0_C (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : cond0_1 i) (x0 : Vec F S8x128 .i32) (x1 : Vec F S1024x512 .f32) (x2 : Vec F S1000x512 .bf16) (xs0 : Vec F S1x1 .f32) (y : S1x1.Idx) :
    ∃ pc ∈ (kernelRun0_C (F := F) c i arg2 harg2 arg3 harg3 arg4 harg4 arg5 harg5 arg6 harg6 hc0 hc1 x0 x1 x2 xs0).2.1, y ∈ pc.1.set :=
  View.cover_of_tiledL (kernelRun0_C (F := F) c i arg2 harg2 arg3 harg3 arg4 harg4 arg5 harg5 arg6 harg6 hc0 hc1 x0 x1 x2 xs0).2.1 S1x1.size (by sl_kernel_rfl) y
/-- What the last step leaves in the output's buffer, -/
def out0_C (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : cond0_1 i) (x0 : Vec F S8x128 .i32) (x1 : Vec F S1024x512 .f32) (x2 : Vec F S1000x512 .bf16) (xs0 : Vec F S1x1 .f32) : Vec F S1x1x128 .f32 :=
  VO0_3.read (Elt F) (VO0_3.writes (Elt F) VO0_3.junk (kernelRun0_C (F := F) c i arg2 harg2 arg3 harg3 arg4 harg4 arg5 harg5 arg6 harg6 hc0 hc1 x0 x1 x2 xs0).1)
/-- and in the scratch. -/
def sout0_C (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : cond0_1 i) (x0 : Vec F S8x128 .i32) (x1 : Vec F S1024x512 .f32) (x2 : Vec F S1000x512 .bf16) (xs0 : Vec F S1x1 .f32) : Vec F S1x1 .f32 :=
  VS0_0.read (Elt F) (VS0_0.writes (Elt F) VS0_0.junk (kernelRun0_C (F := F) c i arg2 harg2 arg3 harg3 arg4 harg4 arg5 harg5 arg6 harg6 hc0 hc1 x0 x1 x2 xs0).2.1)

/-- What is recorded for the output's buffer at a point that does not store into it: nothing reads it. -/
def idleOut : Vec F S1x1x128 .f32 := VO0_3.read (Elt F) (VO0_3.writes (Elt F) VO0_3.junk [])

section Region0

-- The contents of the core's buffers when the region is entered: the parameter everything below is stated at.
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data over
    these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the output's buffer and the scratch hold after each point -/

/-- After point `n`: the output's buffer and the scratch. A first step leaves its own pieces; a later step its pieces given
    what point `n − 1` left in the scratch; the output's buffer is stored at a last step only. No point is both a first and a
    last step. -/
def outsAt0 (c : Dev nD) : (n : ℕ) → n < cfg0.N → Vec F S1x1x128 .f32 × Vec F S1x1 .f32
  | 0, hn => (idleOut, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 16 = 0 then
      if h1 : (n + 1) % 16 = 15 then
        False.elim (by omega)
      else
        (idleOut, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
          sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a first step. -/
theorem outsAt0_A (c : Dev nD) (t : Fin cfg0.N) (h0 : t.val % 16 = 0) (h1 : ¬t.val % 16 = 15) :
    outsAt0 V c t.val t.isLt = (idleOut, sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At a middle step: over what the point before left. -/
theorem outsAt0_B (c : Dev nD) (t : Fin cfg0.N) (h0 : ¬t.val % 16 = 0) (h1 : ¬t.val % 16 = 15) :
    outsAt0 V c t.val t.isLt = (idleOut, sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: over what the point before left. -/
theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- Before position `n`: at the start the plain invariant; afterwards the scratch at what point `n − 1` left, the other
    scoped buffers, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ otherScoped (F := F) c) ∗ (∃ r, prngReg c r)) := by
  cases n with
  | zero => exact absurd rfl hz
  | succ n => rfl

/-! ## The proof data -/

/-- On core `c`: the arrays as the region finds them; after the body at point `t` each input's buffer at its block and the
    output's at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- An input window, never idle, is handed back at its block. -/
theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the closed forms of the two conditions say which case the
    point is in; the invariant hands the body the scratch at what the point before left (at anything, at the grid's first
    point) and takes it back at this point's contents, which the case's pieces cover; the other scoped buffers, the
    generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 32 := lt_of_lt_of_eq t.isLt (show cfg0.N = 32 from N_0)
  by_cases h0 : t.val % 16 = 0
  · have h1 : ¬t.val % 16 = 15 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 16 = 15
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: what the scratch holds is forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS0, Hoth⟩, Hg⟩
  isplitl [HS0 Hoth]
  · isplitl [HS0]
    · iexists _; iexact HS0
    iexact Hoth
  iexact Hg

end Region0

end Cert.Kernel.Hand

end
-- ==== Proof.WordPairRegion.lean ====
/-
  The second pallas_call (the pair sum over the class centres), as one pipeline over a grid of one point.

  Its one input window is the whole 1000×512 array of centres and its one output window the whole 1×1 result. The body
  loads the centres, computes one 1×1 value from them (the skeleton's payload `k1_pay1`) and stores it over the whole
  output buffer. So after the body the input's buffer holds the centres as fetched and the output's buffer holds that
  payload of them; the region keeps nothing between points and owes nothing.
-/
import proofs.«403618_j12678743457990_2_alg».proof.Proof.Gen.Kernel.Launch
import proofs.«403618_j12678743457990_2_alg».proof.Proof.Gen.Kernel.Skeleton
import proofs.«403618_j12678743457990_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- The contents of the core's buffers when the region is entered: the parameter everything here is stated at.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The centres' staging buffer holds the centres' block when the body runs, for any proof data over these arrays whose
    body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 1000×512 buffer and the whole 1×1 buffer, as the rectangles the body loads and stores through. -/
abbrev rCen : Rect S1000x512 := Rect.unit (s := S1000x512) ![0, 0] S1000x512.size inb_S1000x512_S1000x512_0_0
abbrev rOne : Rect S1x1 := Rect.unit (s := S1x1) ![0, 0] S1x1.size inb_S1x1_S1x1_0_0

/-- What the body leaves in the result's 1×1 buffer: its one store, of the payload of the loaded centres. -/
def pairOut (x0 : Vec F S1000x512 .f32) : Vec F S1x1 .f32 :=
  View.canon [⟨rOne, k1_pay1 (View.ld x0 rCen)⟩]

/-- That one store covers the 1×1 buffer. -/
theorem pairOut_cover (p0 : Vec F S1x1 .f32) (y : S1x1.Idx) :
    ∃ pc ∈ ([⟨rOne, p0⟩] : List (View.Piece (Elt F) S1x1 .f32)), y ∈ pc.1.set :=
  View.cover_of_tiled [⟨rOne, p0⟩] S1x1.size (by rfl) y

set_option maxHeartbeats 1000000 in
/-- The body on whole staging buffers: with the centres' buffer at `x0` and the result's at anything, it runs to the
    end holding the centres' buffer as it was and the result's at `pairOut x0`. -/
theorem sound_kernel1 (c : Dev nD) (E : Set ℕ) (i : grid1.Coords) (arg1 : Memref sig .tc .vmem S1000x512 .f32) (harg1 : arg1.IsWhole)
    (arg2 : Memref sig .tc .vmem S1x1 .f32) (harg2 : arg2.IsWhole)
    (x0 : Vec F S1000x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (pairOut x0)) -∗ K ⟨⟩))
      ⊢ wp frame (wpE (defs₀ (F := F)) Variants.none c none) E (cc1__island_loss_kernel i arg1 harg1 arg2 harg2) K := by
  simp only [cc1__island_loss_kernel_eq_skeleton]; unfold cc1__island_loss_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (pairOut_cover _)

/-- The region's proof data on core `c`: the arrays as the region finds them; after the body the centres' buffer at its
    block and the result's at `pairOut` of that block; the invariant the scoped rest and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => pairOut (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = pairOut (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at the point: the centres' buffer holds its block, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.WordMainRun.lean ====
/-
  The whole program's run: @main as five segments — two host operations, the first pallas_call, four host operations,
  the second pallas_call, four host operations — from the launch to the return.

  Between two segments the core holds every unscoped buffer whole at known contents, a fold from the launch memory: a
  stretch of host operations leaves what its operations compute; a pallas_call leaves its arrays at what its write-backs
  make of them (an input as it was entered) and every other buffer as entered. Beside the buffers ride the generator
  register at some state and the core owing nothing. Each pallas_call enters its pipeline from that state — its arrays split
  out of the unscoped buffers, the generator register into the invariant — and leaves it putting them back. The launch
  theorem then says: every weakly fair execution terminates, and the final memory holds every unscoped buffer at the last
  fold. The argument arrays are read back through the fold to their launch contents: no host operation writes one and no
  pallas_call has one as an output.
-/
import proofs.«403618_j12678743457990_2_alg».proof.Proof.Gen.Kernel.Launch
import proofs.«403618_j12678743457990_2_alg».proof.Proof.Gen.Kernel.Skeleton
import proofs.«403618_j12678743457990_2_alg».proof.Proof.Gen.Kernel.Points
import proofs.«403618_j12678743457990_2_alg».proof.Proof.Gen.Kernel.Regions
import proofs.«403618_j12678743457990_2_alg».proof.Proof.WordCenterRegion
import proofs.«403618_j12678743457990_2_alg».proof.Proof.WordPairRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first two host operations: the first pallas_call's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first pallas_call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the next four host operations: the second pallas_call's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second pallas_call's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last four host operations: the return. -/
abbrev W5 : Dev nD → Valuation τ sig (Elt F) := fun c => StableHlo.after hostOps2 (W4 m c)

/-! ## The arguments end as launched -/

/-- The labels: reshaped by a host operation, never written. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- The features: an input window of the first pallas_call. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (by decide)
    _ = m ((c : Thread nD τ).loc main_arg1) := rfl

/-- The centres: converted by a host operation, and an input window of the second pallas_call. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := (W4_arr m c 0).trans (((dat1 (V3 m) c).arrAt_in 0 rfl _).trans (A_eq1 (V3 m) c 0))
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-! ## The proof data family and the thread state -/

/-- Both pipelines' proof data, each at its pallas_call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register. -/
abbrev Tₙ (c : Dev nD) : sProp 𝕄 := iprop(StableHlo.held (c : Thread nD τ) (Pipeline.ucRefs τ sig) (W5 m c) ∗ ∃ r, prngReg c r)

/-! ## The pallas_calls as segments -/

set_option backward.isDefEq.respectTransparency.types false in
/-- THE FIRST PALLAS_CALL: entered from every unscoped buffer at `W1`, left at `W2`. Its arrays are split out of the
    unscoped buffers and put back at the exit contents; the generator register goes into the invariant, which carries the
    scratch from point to point, and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PALLAS_CALL: entered from every unscoped buffer at `W3`, left at `W4`; it keeps nothing between points, so
    its invariant is the plain one. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of those segments. -/
theorem main_run (c : Dev nD) : main (F := F) c = Pipeline.Seg.run (segs m) := (main_chain c).trans (by chain_rfl)

set_option backward.isDefEq.respectTransparency.types false in
/-- THE RUN. From any memory with zero counters, every weakly fair execution of @main terminates, nothing faulting, and
    the final memory holds every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME, with the result named: the run's post read at the result's buffer and at the three argument arrays. -/
theorem run_result : θ_run defs (onTc (τ := τ) (main (F := F))) ⟨m, fun _ => 0, ρ⟩ (fun r => ∀ c : Dev nD,
      r.2.mem ((c.tc : Thread nD τ).loc main_v9) = W5 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v9 (by decide)),
      (h c _ (mem_uc main_arg0 (by decide))).trans (W5_main_arg0 m c),
      (h c _ (mem_uc main_arg1 (by decide))).trans (W5_main_arg1 m c),
      (h c _ (mem_uc main_arg2 (by decide))).trans (W5_main_arg2 m c)⟩) (run_main m ρ)

/-- The frame alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.Kernel.Hand

end
-- ==== Proof.CenterRuns.lean ====
/-
  The first pallas_call (the summed squared distances to the class centres): what its runs share, and the body's run in
  each of its three cases.

  The grid is 2 × 16: point t is core t / 16, step t % 16. The body has two conditionals on the step: at step 0 it stores
  zero into its 1×1 scratch before anything else; at step 15 it stores the scaled scratch, spread over 128 lanes, into
  the output block. Between them, at every step, it loads the 8×128 label block, the 1000×512 centres and the 1024×512
  feature block, and stores into the scratch the scratch's value plus the tile's summed squared distances. So a point is
  in one of three cases — the first step (the scratch reset, the output untouched), a middle step (the scratch added to,
  the output untouched), the last step (the scratch added to, the output stored) — and in each the body's run leaves
  the scratch, and at the last step the output, with pieces written that the run itself names.
-/
import proofs.«403618_j12678743457990_2_alg».proof.Proof.Gen.KernelIdeal.Launch
import proofs.«403618_j12678743457990_2_alg».proof.Proof.Gen.KernelIdeal.Skeleton
import proofs.«403618_j12678743457990_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- The condition of the first conditional: the step is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the second conditional: the step is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last step the output window is idle (the body stores nothing into it) and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last step it is live. -/
theorem liveAt0_3 : ∀ t : Fin cfg0.N, cond0_1 (grid0.coords t) → cfg0.idle 3 (grid0.coords t) = false := by decide +kernel

/-! ## The staging and scratch buffers the body is called with -/

/-- One staging buffer of the output window, through which its contents are stated. -/
abbrev VO0_3 : View sig .tc .vmem S1x1x128 .f32 := (Memref.whole cc0_stg3_0 : Memref sig .tc .vmem S1x1x128 .f32).view
/-- Each window's current staging buffer at point `t`, as the pipeline passes it, and that it is a whole buffer. -/
abbrev ms0_0 (t : Fin cfg0.N) : Memref sig .tc .vmem S8x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)
/-- The 1×1 scratch the body carries from step to step: a whole scoped buffer of the kernel's own. -/
abbrev scM0_0 : Memref sig .tc .vmem S1x1 .f32 := Memref.whole cc0_scratch0
abbrev VS0_0 : View sig .tc .vmem S1x1 .f32 := scM0_0.view

/-- The other scoped buffers of the core that are no staging buffer of this pallas_call (the second pallas_call's two):
    each whole at some contents, untouched here. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f))

/-- The region's plain invariant, conjunct by conjunct: the scratch at some contents, the other scoped buffers, the
    generator register at some state. -/
theorem PhiA0_eq (c : Dev nD) :
    (Pipeline.ΦA spec0 c : sProp 𝕄)
      = iprop(iprop((∃ d, owns (c : Thread nD τ) scM0_0 fullShare d) ∗ otherScoped (F := F) c) ∗ (∃ r, prngReg c r)) := by
  unfold Pipeline.ΦA otherScoped; rw [scopedRest0_eq]; simp only [scM0_0, owns_whole]; try rfl

variable (m : (ℓ : Loc nD τ sig) → Buf (Elt F) ℓ)

/-! ## The body's run, case by case -/

set_option maxHeartbeats 1000000 in
/-- THE FIRST STEP (the first conditional taken, the second not). With the three inputs' buffers at `x0`, `x1`, `x2`, the
    output's at `xi3` and the scratch at anything, the body runs to the end holding the inputs' and the output's buffers
    as they were and the scratch with the pieces `LS0` written, which the run names. -/
noncomputable def kernelRun0_A (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : cond0_0 i) (hc1 : ¬cond0_1 i)
    (x0 : Vec F S8x128 .i32) (x1 : Vec F S1024x512 .f32) (x2 : Vec F S1000x512 .bf16) :
    { LS0 : List (View.Piece (Elt F) S1x1 .f32) //
      ∀ (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__center_loss_kernel i arg2 harg2 arg3 harg3 arg4 harg4 arg5 harg5 arg6 harg6) K } := by
  refine ⟨?_, fun xi3 E K => ?run⟩
  case run =>
    simp only [cc0__center_loss_kernel_eq_skeleton]; unfold cc0__center_loss_kernel_skel
    unfold owns
    iintro ⟨⟨%f0, %hf0, H0⟩, ⟨%f1, %hf1, H1⟩, ⟨%f2, %hf2, H2⟩, ⟨%f3, %hf3, H3⟩, ⟨%ds, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- A MIDDLE STEP (neither conditional taken). The scratch comes in at `xs0`, what the step before left. -/
noncomputable def kernelRun0_B (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : ¬cond0_1 i)
    (x0 : Vec F S8x128 .i32) (x1 : Vec F S1024x512 .f32) (x2 : Vec F S1000x512 .bf16) (xs0 : Vec F S1x1 .f32) :
    { LS0 : List (View.Piece (Elt F) S1x1 .f32) //
      ∀ (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__center_loss_kernel i arg2 harg2 arg3 harg3 arg4 harg4 arg5 harg5 arg6 harg6) K } := by
  refine ⟨?_, fun xi3 E K => ?run⟩
  case run =>
    simp only [cc0__center_loss_kernel_eq_skeleton]; unfold cc0__center_loss_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- THE LAST STEP (the second conditional taken, the first not). The scratch comes in at `xs0`; the output's buffer, at
    anything, ends with the pieces `L3` written. -/
noncomputable def kernelRun0_C (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : cond0_1 i)
    (x0 : Vec F S8x128 .i32) (x1 : Vec F S1024x512 .f32) (x2 : Vec F S1000x512 .bf16) (xs0 : Vec F S1x1 .f32) :
    Σ' (L3 : List (View.Piece (Elt F) S1x1x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__center_loss_kernel i arg2 harg2 arg3 harg3 arg4 harg4 arg5 harg5 arg6 harg6) K } := by
  refine ⟨?_, ?_, fun E K => ?run⟩
  case run =>
    simp only [cc0__center_loss_kernel_eq_skeleton]; unfold cc0__center_loss_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

end Cert.KernelIdeal.Hand

end
-- ==== Proof.CenterRegion.lean ====
/-
  The first pallas_call as a pipeline: what its output buffer and its scratch hold after each point, the invariant that
  carries the scratch from point to point, the proof data, and the body obligation.

  After point n the scratch holds what the point's case leaves in it: at a first step the case's pieces over nothing, at a
  later step the case's pieces given what point n − 1 left. The output's buffer is stored only at a last step; at the other
  points the window is idle and not written back, and what is recorded for it there is a placeholder nothing reads. The
  invariant before the first point is the plain one (the scratch at anything); before a later point it holds the scratch
  at what the point before left, beside the other scoped buffers and the generator register.
-/
import proofs.«403618_j12678743457990_2_alg».proof.Proof.Gen.KernelIdeal.Launch
import proofs.«403618_j12678743457990_2_alg».proof.Proof.Gen.KernelIdeal.Skeleton
import proofs.«403618_j12678743457990_2_alg».proof.Proof.Gen.KernelIdeal.Points
import proofs.«403618_j12678743457990_2_alg».proof.Proof.CenterRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The first step's pieces cover the 1×1 scratch. -/
theorem scover0_A (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : cond0_0 i) (hc1 : ¬cond0_1 i) (x0 : Vec F S8x128 .i32) (x1 : Vec F S1024x512 .f32) (x2 : Vec F S1000x512 .bf16) (y : S1x1.Idx) :
    ∃ pc ∈ (kernelRun0_A (F := F) c i arg2 harg2 arg3 harg3 arg4 harg4 arg5 harg5 arg6 harg6 hc0 hc1 x0 x1 x2).1, y ∈ pc.1.set :=
  View.cover_of_tiledL (kernelRun0_A (F := F) c i arg2 harg2 arg3 harg3 arg4 harg4 arg5 harg5 arg6 harg6 hc0 hc1 x0 x1 x2).1 S1x1.size (by sl_kernel_rfl) y
/-- What the first step leaves in the scratch. -/
def sout0_A (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : cond0_0 i) (hc1 : ¬cond0_1 i) (x0 : Vec F S8x128 .i32) (x1 : Vec F S1024x512 .f32) (x2 : Vec F S1000x512 .bf16) : Vec F S1x1 .f32 :=
  VS0_0.read (Elt F) (VS0_0.writes (Elt F) VS0_0.junk (kernelRun0_A (F := F) c i arg2 harg2 arg3 harg3 arg4 harg4 arg5 harg5 arg6 harg6 hc0 hc1 x0 x1 x2).1)

/-- A middle step's pieces cover the scratch. -/
theorem scover0_B (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : ¬cond0_1 i) (x0 : Vec F S8x128 .i32) (x1 : Vec F S1024x512 .f32) (x2 : Vec F S1000x512 .bf16) (xs0 : Vec F S1x1 .f32) (y : S1x1.Idx) :
    ∃ pc ∈ (kernelRun0_B (F := F) c i arg2 harg2 arg3 harg3 arg4 harg4 arg5 harg5 arg6 harg6 hc0 hc1 x0 x1 x2 xs0).1, y ∈ pc.1.set :=
  View.cover_of_tiledL (kernelRun0_B (F := F) c i arg2 harg2 arg3 harg3 arg4 harg4 arg5 harg5 arg6 harg6 hc0 hc1 x0 x1 x2 xs0).1 S1x1.size (by sl_kernel_rfl) y
/-- What a middle step leaves in the scratch, given what the step before left. -/
def sout0_B (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : ¬cond0_1 i) (x0 : Vec F S8x128 .i32) (x1 : Vec F S1024x512 .f32) (x2 : Vec F S1000x512 .bf16) (xs0 : Vec F S1x1 .f32) : Vec F S1x1 .f32 :=
  VS0_0.read (Elt F) (VS0_0.writes (Elt F) VS0_0.junk (kernelRun0_B (F := F) c i arg2 harg2 arg3 harg3 arg4 harg4 arg5 harg5 arg6 harg6 hc0 hc1 x0 x1 x2 xs0).1)

/-- The last step's pieces cover the output's 1×1×128 block, -/
theorem cover0_C (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : cond0_1 i) (x0 : Vec F S8x128 .i32) (x1 : Vec F S1024x512 .f32) (x2 : Vec F S1000x512 .bf16) (xs0 : Vec F S1x1 .f32) (y : S1x1x128.Idx) :
    ∃ pc ∈ (kernelRun0_C (F := F) c i arg2 harg2 arg3 harg3 arg4 harg4 arg5 harg5 arg6 harg6 hc0 hc1 x0 x1 x2 xs0).1, y ∈ pc.1.set :=
  View.cover_of_tiledL (kernelRun0_C (F := F) c i arg2 harg2 arg3 harg3 arg4 harg4 arg5 harg5 arg6 harg6 hc0 hc1 x0 x1 x2 xs0).1 S1x1x128.size (by sl_kernel_rfl) y
/-- and the scratch. -/
theorem scover0_C (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : cond0_1 i) (x0 : Vec F S8x128 .i32) (x1 : Vec F S1024x512 .f32) (x2 : Vec F S1000x512 .bf16) (xs0 : Vec F S1x1 .f32) (y : S1x1.Idx) :
    ∃ pc ∈ (kernelRun0_C (F := F) c i arg2 harg2 arg3 harg3 arg4 harg4 arg5 harg5 arg6 harg6 hc0 hc1 x0 x1 x2 xs0).2.1, y ∈ pc.1.set :=
  View.cover_of_tiledL (kernelRun0_C (F := F) c i arg2 harg2 arg3 harg3 arg4 harg4 arg5 harg5 arg6 harg6 hc0 hc1 x0 x1 x2 xs0).2.1 S1x1.size (by sl_kernel_rfl) y
/-- What the last step leaves in the output's buffer, -/
def out0_C (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : cond0_1 i) (x0 : Vec F S8x128 .i32) (x1 : Vec F S1024x512 .f32) (x2 : Vec F S1000x512 .bf16) (xs0 : Vec F S1x1 .f32) : Vec F S1x1x128 .f32 :=
  VO0_3.read (Elt F) (VO0_3.writes (Elt F) VO0_3.junk (kernelRun0_C (F := F) c i arg2 harg2 arg3 harg3 arg4 harg4 arg5 harg5 arg6 harg6 hc0 hc1 x0 x1 x2 xs0).1)
/-- and in the scratch. -/
def sout0_C (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : cond0_1 i) (x0 : Vec F S8x128 .i32) (x1 : Vec F S1024x512 .f32) (x2 : Vec F S1000x512 .bf16) (xs0 : Vec F S1x1 .f32) : Vec F S1x1 .f32 :=
  VS0_0.read (Elt F) (VS0_0.writes (Elt F) VS0_0.junk (kernelRun0_C (F := F) c i arg2 harg2 arg3 harg3 arg4 harg4 arg5 harg5 arg6 harg6 hc0 hc1 x0 x1 x2 xs0).2.1)

/-- What is recorded for the output's buffer at a point that does not store into it: nothing reads it. -/
def idleOut : Vec F S1x1x128 .f32 := VO0_3.read (Elt F) (VO0_3.writes (Elt F) VO0_3.junk [])

section Region0

-- The contents of the core's buffers when the region is entered: the parameter everything below is stated at.
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data over
    these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the output's buffer and the scratch hold after each point -/

/-- After point `n`: the output's buffer and the scratch. A first step leaves its own pieces; a later step its pieces given
    what point `n − 1` left in the scratch; the output's buffer is stored at a last step only. No point is both a first and a
    last step. -/
def outsAt0 (c : Dev nD) : (n : ℕ) → n < cfg0.N → Vec F S1x1x128 .f32 × Vec F S1x1 .f32
  | 0, hn => (idleOut, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 16 = 0 then
      if h1 : (n + 1) % 16 = 15 then
        False.elim (by omega)
      else
        (idleOut, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
          sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a first step. -/
theorem outsAt0_A (c : Dev nD) (t : Fin cfg0.N) (h0 : t.val % 16 = 0) (h1 : ¬t.val % 16 = 15) :
    outsAt0 V c t.val t.isLt = (idleOut, sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At a middle step: over what the point before left. -/
theorem outsAt0_B (c : Dev nD) (t : Fin cfg0.N) (h0 : ¬t.val % 16 = 0) (h1 : ¬t.val % 16 = 15) :
    outsAt0 V c t.val t.isLt = (idleOut, sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: over what the point before left. -/
theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- Before position `n`: at the start the plain invariant; afterwards the scratch at what point `n − 1` left, the other
    scoped buffers, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ otherScoped (F := F) c) ∗ (∃ r, prngReg c r)) := by
  cases n with
  | zero => exact absurd rfl hz
  | succ n => rfl

/-! ## The proof data -/

/-- On core `c`: the arrays as the region finds them; after the body at point `t` each input's buffer at its block and the
    output's at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- An input window, never idle, is handed back at its block. -/
theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the closed forms of the two conditions say which case the
    point is in; the invariant hands the body the scratch at what the point before left (at anything, at the grid's first
    point) and takes it back at this point's contents, which the case's pieces cover; the other scoped buffers, the
    generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 32 := lt_of_lt_of_eq t.isLt (show cfg0.N = 32 from N_0)
  by_cases h0 : t.val % 16 = 0
  · have h1 : ¬t.val % 16 = 15 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 16 = 15
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: what the scratch holds is forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS0, Hoth⟩, Hg⟩
  isplitl [HS0 Hoth]
  · isplitl [HS0]
    · iexists _; iexact HS0
    iexact Hoth
  iexact Hg

end Region0

end Cert.KernelIdeal.Hand

end
-- ==== Proof.PairRegion.lean ====
/-
  The second pallas_call (the pair sum over the class centres), as one pipeline over a grid of one point.

  Its one input window is the whole 1000×512 array of centres and its one output window the whole 1×1 result. The body
  loads the centres, computes one 1×1 value from them (the skeleton's payload `k1_pay1`) and stores it over the whole
  output buffer. So after the body the input's buffer holds the centres as fetched and the output's buffer holds that
  payload of them; the region keeps nothing between points and owes nothing.
-/
import proofs.«403618_j12678743457990_2_alg».proof.Proof.Gen.KernelIdeal.Launch
import proofs.«403618_j12678743457990_2_alg».proof.Proof.Gen.KernelIdeal.Skeleton
import proofs.«403618_j12678743457990_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- The contents of the core's buffers when the region is entered: the parameter everything here is stated at.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The centres' staging buffer holds the centres' block when the body runs, for any proof data over these arrays whose
    body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 1000×512 buffer and the whole 1×1 buffer, as the rectangles the body loads and stores through. -/
abbrev rCen : Rect S1000x512 := Rect.unit (s := S1000x512) ![0, 0] S1000x512.size inb_S1000x512_S1000x512_0_0
abbrev rOne : Rect S1x1 := Rect.unit (s := S1x1) ![0, 0] S1x1.size inb_S1x1_S1x1_0_0

/-- What the body leaves in the result's 1×1 buffer: its one store, of the payload of the loaded centres. -/
def pairOut (x0 : Vec F S1000x512 .f32) : Vec F S1x1 .f32 :=
  View.canon [⟨rOne, k1_pay1 (View.ld x0 rCen)⟩]

/-- That one store covers the 1×1 buffer. -/
theorem pairOut_cover (p0 : Vec F S1x1 .f32) (y : S1x1.Idx) :
    ∃ pc ∈ ([⟨rOne, p0⟩] : List (View.Piece (Elt F) S1x1 .f32)), y ∈ pc.1.set :=
  View.cover_of_tiled [⟨rOne, p0⟩] S1x1.size (by rfl) y

set_option maxHeartbeats 1000000 in
/-- The body on whole staging buffers: with the centres' buffer at `x0` and the result's at anything, it runs to the
    end holding the centres' buffer as it was and the result's at `pairOut x0`. -/
theorem sound_kernel1 (c : Dev nD) (E : Set ℕ) (i : grid1.Coords) (arg1 : Memref sig .tc .vmem S1000x512 .f32) (harg1 : arg1.IsWhole)
    (arg2 : Memref sig .tc .vmem S1x1 .f32) (harg2 : arg2.IsWhole)
    (x0 : Vec F S1000x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (pairOut x0)) -∗ K ⟨⟩))
      ⊢ wp frame (wpE (defs₀ (F := F)) Variants.none c none) E (cc1__island_loss_kernel i arg1 harg1 arg2 harg2) K := by
  simp only [cc1__island_loss_kernel_eq_skeleton]; unfold cc1__island_loss_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (pairOut_cover _)

/-- The region's proof data on core `c`: the arrays as the region finds them; after the body the centres' buffer at its
    block and the result's at `pairOut` of that block; the invariant the scoped rest and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => pairOut (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = pairOut (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at the point: the centres' buffer holds its block, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.MainRun.lean ====
/-
  The whole program's run: @main as five segments — two host operations, the first pallas_call, four host operations,
  the second pallas_call, four host operations — from the launch to the return.

  Between two segments the core holds every unscoped buffer whole at known contents, a fold from the launch memory: a
  stretch of host operations leaves what its operations compute; a pallas_call leaves its arrays at what its write-backs
  make of them (an input as it was entered) and every other buffer as entered. Beside the buffers ride the generator
  register at some state and the core owing nothing. Each pallas_call enters its pipeline from that state — its arrays split
  out of the unscoped buffers, the generator register into the invariant — and leaves it putting them back. The launch
  theorem then says: every weakly fair execution terminates, and the final memory holds every unscoped buffer at the last
  fold. The argument arrays are read back through the fold to their launch contents: no host operation writes one and no
  pallas_call has one as an output.
-/
import proofs.«403618_j12678743457990_2_alg».proof.Proof.Gen.KernelIdeal.Launch
import proofs.«403618_j12678743457990_2_alg».proof.Proof.Gen.KernelIdeal.Skeleton
import proofs.«403618_j12678743457990_2_alg».proof.Proof.Gen.KernelIdeal.Points
import proofs.«403618_j12678743457990_2_alg».proof.Proof.Gen.KernelIdeal.Regions
import proofs.«403618_j12678743457990_2_alg».proof.Proof.CenterRegion
import proofs.«403618_j12678743457990_2_alg».proof.Proof.PairRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first two host operations: the first pallas_call's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first pallas_call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the next four host operations: the second pallas_call's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second pallas_call's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last four host operations: the return. -/
abbrev W5 : Dev nD → Valuation τ sig (Elt F) := fun c => StableHlo.after hostOps2 (W4 m c)

/-! ## The arguments end as launched -/

/-- The labels: reshaped by a host operation, never written. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- The features: an input window of the first pallas_call. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (by decide)
    _ = m ((c : Thread nD τ).loc main_arg1) := rfl

/-- The centres: converted by a host operation, and an input window of the second pallas_call. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := (W4_arr m c 0).trans (((dat1 (V3 m) c).arrAt_in 0 rfl _).trans (A_eq1 (V3 m) c 0))
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-! ## The proof data family and the thread state -/

/-- Both pipelines' proof data, each at its pallas_call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register. -/
abbrev Tₙ (c : Dev nD) : sProp 𝕄 := iprop(StableHlo.held (c : Thread nD τ) (Pipeline.ucRefs τ sig) (W5 m c) ∗ ∃ r, prngReg c r)

/-! ## The pallas_calls as segments -/

set_option backward.isDefEq.respectTransparency.types false in
/-- THE FIRST PALLAS_CALL: entered from every unscoped buffer at `W1`, left at `W2`. Its arrays are split out of the
    unscoped buffers and put back at the exit contents; the generator register goes into the invariant, which carries the
    scratch from point to point, and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PALLAS_CALL: entered from every unscoped buffer at `W3`, left at `W4`; it keeps nothing between points, so
    its invariant is the plain one. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of those segments. -/
theorem main_run (c : Dev nD) : main (F := F) c = Pipeline.Seg.run (segs m) := (main_chain c).trans (by chain_rfl)

set_option backward.isDefEq.respectTransparency.types false in
/-- THE RUN. From any memory with zero counters, every weakly fair execution of @main terminates, nothing faulting, and
    the final memory holds every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME, with the result named: the run's post read at the result's buffer and at the three argument arrays. -/
theorem run_result : θ_run defs (onTc (τ := τ) (main (F := F))) ⟨m, fun _ => 0, ρ⟩ (fun r => ∀ c : Dev nD,
      r.2.mem ((c.tc : Thread nD τ).loc main_v9) = W5 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v9 (by decide)),
      (h c _ (mem_uc main_arg0 (by decide))).trans (W5_main_arg0 m c),
      (h c _ (mem_uc main_arg1 (by decide))).trans (W5_main_arg1 m c),
      (h c _ (mem_uc main_arg2 (by decide))).trans (W5_main_arg2 m c)⟩) (run_main m ρ)

/-- The frame alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.KernelIdeal.Hand

end
-- ==== Proof.PairValue.lean ====
/-
  What the second pallas_call's 1×1 result array holds after its pipeline has run.

  The grid has one point. There the input window's block is the whole 1000×512 array of centres, read through zero
  offsets, so the block the body sees is the array itself; the body leaves the payload of that block in the output's
  buffer; the point writes the buffer back, and its block is the whole 1×1 array. So the result array ends holding the
  payload of the centres as the region found them.
-/
import proofs.«403618_j12678743457990_2_alg».proof.Proof.Gen.KernelIdeal.Launch
import proofs.«403618_j12678743457990_2_alg».proof.Proof.Gen.KernelIdeal.Skeleton
import proofs.«403618_j12678743457990_2_alg».proof.Proof.Gen.KernelIdeal.Points
import proofs.«403618_j12678743457990_2_alg».proof.Proof.PairRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Value1

-- The contents of the core's buffers when the region is entered.
variable (V : (c : Dev nD) → (b : Ref sig .tc) → Buf (Elt F) ((c : Thread nD τ).loc b))

/-- Zero offsets, as the body's accesses spell them. -/
theorem hzero2 : (![0, 0] : Fin 2 → Nat) = fun _ => 0 := funext fun a => by fin_cases a <;> rfl

/-- What the body leaves in the result's buffer is the payload of the loaded centres: its one store goes through the
    whole buffer at zero offsets, and its load reads the whole centres' buffer at zero offsets. -/
theorem pairOut_eq (x0 : Vec F S1000x512 .f32) : pairOut x0 = k1_pay1 x0 := by
  unfold pairOut
  rw [View.canon_unit_zero hzero2, View.ld_unit_zero (S := S1000x512) hzero2]

/-- The centres' block at the grid's one point is the whole array of centres: block (0, 0) of the whole shape, read
    through zero offsets. -/
theorem iblk1_0_eq (c : Dev nD) (t : Fin cfg1.N) : (iblk1 V c 0 t : Vec F S1000x512 .f32) = V c main_arg2 := by
  obtain rfl : t = t1_0 := fin_N1 t
  unfold iblk1
  have hz' : (fun a => win1_0.index t1_0 a * main_arg2.ty.shape.size a) = fun _ => 0 :=
    funext fun a => by fin_cases a <;> decide
  exact Memref.read_access_unit_zero (Elt F) main_arg2 hz' (fun a => by rw [congrFun hz' a]; simp) (V c main_arg2)

/-- The payload of the centres, as contents of the result array (whose one block is the array). -/
abbrev pairResult (c : Dev nD) : Buf (Elt F) ((c : Thread nD τ).loc main_v6) := (k1_pay1 (V c main_arg2) : Vec F S1x1 .f32)

/-- The one write-back writes it: block (0, 0) of the 1×1 array read through zero offsets is the array. -/
theorem flushed1_eq (c : Dev nD) (t : Fin cfg1.N) (hf : (cfg1.win 1).flush t = true) :
    (dat1 V c).flushed 1 t = ((cfg1.win 1).blk t).view.read (Elt F) (pairResult V c) := by
  obtain rfl : t = t1_0 := fin_N1 t
  show (cfg1.win 1).cut (grid1.coords t1_0) ((dat1 V c).after 1 t1_0) = _
  rw [after1_1, pairOut_eq, iblk1_0_eq]
  have hz' : (fun a => win1_1.index t1_0 a * main_v6.ty.shape.size a) = fun _ => 0 :=
    funext fun a => by fin_cases a <;> decide
  exact (Memref.read_access_unit_zero (Elt F) main_v6 hz' (fun a => by rw [congrFun hz' a]; simp) (pairResult V c)).symm

/-- So the result array ends holding the payload of the centres: the one point's block covers it. -/
theorem final1 (c : Dev nD) : (dat1 V c).arrAt 1 cfg1.N = (k1_pay1 (V c main_arg2) : Vec F S1x1 .f32) :=
  (dat1 V c).arrAt_eq_of_cover 1 (pairResult V c) (flushed1_eq V c) fun i =>
    ⟨t1_0, flush1_1 t1_0, by
      show i ∈ ((View.whole main_v6).slice (win1_1.rect t1_0)).set
      rw [View.set_slice_whole, Rect.mem_set_unit]
      intro a
      have h0 : (i 0 : Nat) < 1 := (i 0).isLt
      have h1 : (i 1 : Nat) < 1 := (i 1).isLt
      match a with
      | ⟨0, _⟩ =>
        show win1_1.index t1_0 0 * win1_1.size 0 ≤ (i 0 : Nat)
          ∧ (i 0 : Nat) < win1_1.index t1_0 0 * win1_1.size 0 + win1_1.xsize (grid1.coords t1_0) 0
        rw [show win1_1.index t1_0 0 * win1_1.size 0 = 0 from by decide +kernel,
          show win1_1.xsize (grid1.coords t1_0) 0 = 1 from by decide +kernel]
        omega
      | ⟨1, _⟩ =>
        show win1_1.index t1_0 1 * win1_1.size 1 ≤ (i 1 : Nat)
          ∧ (i 1 : Nat) < win1_1.index t1_0 1 * win1_1.size 1 + win1_1.xsize (grid1.coords t1_0) 1
        rw [show win1_1.index t1_0 1 * win1_1.size 1 = 0 from by decide +kernel,
          show win1_1.xsize (grid1.coords t1_0) 1 = 1 from by decide +kernel]
        omega⟩

end Value1

end Cert.KernelIdeal.Hand

end
-- ==== Proof.ResultTerm.lean ====
/-
  The result buffer at the return, as a term: the last four host operations applied to what the two pallas_calls left.

  The result is  (the sum over the two cores of entry (core, 0, 0) of the first pallas_call's 2×1×128 array)  plus
  one half times  (the second pallas_call's 1×1 array read as a scalar).  The first array is what the four host operations
  between the pallas_calls read (a slice of lane 0, a reshape to two entries, a sum from zero); the second pallas_call does
  not write it, and its own input, the centres, reaches it as launched.
-/
import proofs.«403618_j12678743457990_2_alg».proof.Proof.Gen.KernelIdeal.Launch
import proofs.«403618_j12678743457990_2_alg».proof.Proof.Gen.KernelIdeal.Skeleton
import proofs.«403618_j12678743457990_2_alg».proof.Proof.Gen.KernelIdeal.Points
import proofs.«403618_j12678743457990_2_alg».proof.Proof.MainRun
import proofs.«403618_j12678743457990_2_alg».proof.Proof.PairValue
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ)

/-- The last stretch: the second pallas_call's 1×1 array reshaped to a scalar, halved, and added to the cores' sum. -/
theorem W5_v9 (c : Dev nD) :
    (W5 m c (Proc.devRef .tc main_v9) : FVec F S_ .f32)
      = addf (W4 m c (Proc.devRef .tc main_v5) : FVec F S_ .f32)
          (mulf (constant S_ .f32 0x3F000000#32) (shapeCast S_ (W4 m c (Proc.devRef .tc main_v6) : FVec F S1x1 .f32) shapeCasts_S1x1_S_)) := by
  show StableHlo.after hostOps2 (W4 m c) (Proc.devRef .tc main_v9) = _
  after_results
  rfl

/-- The middle stretch: lane 0 of the first pallas_call's 2×1×128 array, as two entries, summed from zero. -/
theorem W3_v5 (c : Dev nD) :
    (W3 m c (Proc.devRef .tc main_v5) : FVec F S_ .f32)
      = Host.reduceAdd (shapeCast S2 (extractStridedSlice S2x1x1 ![0, 0, 0] (W2 m c (Proc.devRef .tc main_v2) : FVec F S2x1x128 .f32) slices_S2x1x128_S2x1x1_0_0_0) shapeCasts_S2x1x1_S2)
          (constant S_ .f32 0x00000000#32) reducesTo_S2_S_d0 h_S_ := by
  show StableHlo.after hostOps1 (W2 m c) (Proc.devRef .tc main_v5) = _
  after_results
  rfl

/-- The second pallas_call does not write the cores' sum. -/
theorem W4_v5 (c : Dev nD) : W4 m c (Proc.devRef .tc main_v5) = W3 m c (Proc.devRef .tc main_v5) :=
  W4_of_ne m c main_v5 (by decide)

/-- The centres reach the second pallas_call as launched. -/
theorem V3_main_arg2 (c : Dev nD) : V3 m c main_arg2 = m ((c : Thread nD τ).loc main_arg2) :=
  calc W3 m c (Proc.devRef .tc main_arg2)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- What the second pallas_call leaves in its 1×1 array: its payload of the centres as launched. -/
theorem W4_v6 (c : Dev nD) :
    (W4 m c (Proc.devRef .tc main_v6) : FVec F S1x1 .f32) = k1_pay1 (m ((c : Thread nD τ).loc main_arg2) : Vec F S1000x512 .f32) := by
  have h := (W4_arr m c 1).trans (final1 (V3 m) c)
  rw [V3_main_arg2] at h
  exact h

/-- What the first pallas_call leaves in its 2×1×128 array: what its pipeline's write-backs make of it. -/
theorem W2_v2 (c : Dev nD) : W2 m c (Proc.devRef .tc main_v2) = (dat0 (V1 m) c).arrAt 3 cfg0.N :=
  W2_arr m c 3

end Cert.KernelIdeal.Hand

end
-- ==== Proof.CenterValue.lean ====
/-
  The first pallas_call's values: what its 1×1 scratch holds after each grid point, as the skeleton's payloads, and what
  its 2×1×128 result array holds after its pipeline has run.

  The grid is 2 × 16: point t is core t / 16, step t % 16. At a first step the body stores zero into the scratch, reads
  it back, and stores the step's summed squared distances added to it; at a later step it adds the step's sum to what
  the step before left. Each case's last store covers the scratch, so what a case leaves is that store's payload, its
  loads reading the whole staging buffers. So the scratch after point n is a recursion over the points that restarts
  from zero at every multiple of 16. At a last step the body reads the scratch once more and stores it, scaled and
  spread over the 128 lanes, into the output block, which is written back to row t / 16 of the result array. Two points
  write back, 15 and 31, each its own row; together the two rows are the array.
-/
import proofs.«403618_j12678743457990_2_alg».proof.Proof.CenterRegion
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-3 load or store, as constant functions. -/
theorem hz0_2 : (![0, 0] : Fin 2 → Nat) = fun _ => 0 := funext fun a => by fin_cases a <;> rfl
theorem hz0_3 : (![0, 0, 0] : Fin 3 → Nat) = fun _ => 0 := funext fun a => by fin_cases a <;> rfl

/-! ## What each case leaves, as the payloads -/

/-- A middle step's one store covers the scratch: it leaves the step's sum added to what the scratch held. -/
theorem sout0_B_eq (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : ¬cond0_1 i) (x0 : Vec F S8x128 .i32) (x1 : Vec F S1024x512 .f32) (x2 : Vec F S1000x512 .bf16) (xs0 : Vec F S1x1 .f32) :
    sout0_B c i arg2 harg2 arg3 harg3 arg4 harg4 arg5 harg5 arg6 harg6 hc0 hc1 x0 x1 x2 xs0 = k0_pay2 x0 x2 x1 xs0 := by
  unfold sout0_B
  rw [View.read_writes_eq_canon _ _ _ (scover0_B c i arg2 harg2 arg3 harg3 arg4 harg4 arg5 harg5 arg6 harg6 hc0 hc1 x0 x1 x2 xs0)]
  unfold kernelRun0_B
  dsimp only
  sl_unfold_words
  rw [View.canon_unit_zero hz0_2]
  simp only [View.readAt_eq_ld, harg2.read_unread, harg3.read_unread, harg4.read_unread, harg6.read_unread, View.ld_unit_zero (S := S8x128) hz0_2, View.ld_unit_zero (S := S1000x512) hz0_2, View.ld_unit_zero (S := S1024x512) hz0_2, View.ld_unit_zero (S := S1x1) hz0_2, View.ld_unit_zero (S := S1x1x128) hz0_3]

/-- The first step stores zero, reads it back, and stores the step's sum added to it: the later store covers. -/
theorem sout0_A_eq (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : cond0_0 i) (hc1 : ¬cond0_1 i) (x0 : Vec F S8x128 .i32) (x1 : Vec F S1024x512 .f32) (x2 : Vec F S1000x512 .bf16) :
    sout0_A c i arg2 harg2 arg3 harg3 arg4 harg4 arg5 harg5 arg6 harg6 hc0 hc1 x0 x1 x2 = k0_pay2 x0 x2 x1 (k0_pay1 (F := F)) := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S1x1) hz0_2, View.readCov_unit_zero (S := S1x1) _ hz0_2]
  simp only [View.readAt_eq_ld, harg2.read_unread, harg3.read_unread, harg4.read_unread, View.ld_unit_zero (S := S8x128) hz0_2, View.ld_unit_zero (S := S1000x512) hz0_2, View.ld_unit_zero (S := S1024x512) hz0_2, View.ld_unit_zero (S := S1x1) hz0_2, View.ld_unit_zero (S := S1x1x128) hz0_3]

/-- The last step leaves the scratch as a middle step does. -/
theorem sout0_C_eq (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : cond0_1 i) (x0 : Vec F S8x128 .i32) (x1 : Vec F S1024x512 .f32) (x2 : Vec F S1000x512 .bf16) (xs0 : Vec F S1x1 .f32) :
    sout0_C c i arg2 harg2 arg3 harg3 arg4 harg4 arg5 harg5 arg6 harg6 hc0 hc1 x0 x1 x2 xs0 = k0_pay2 x0 x2 x1 xs0 := by
  unfold sout0_C
  rw [View.read_writes_eq_canon _ _ _ (scover0_C c i arg2 harg2 arg3 harg3 arg4 harg4 arg5 harg5 arg6 harg6 hc0 hc1 x0 x1 x2 xs0)]
  unfold kernelRun0_C
  dsimp only
  sl_unfold_words
  rw [View.canon_unit_zero hz0_2]
  simp only [View.readAt_eq_ld, harg2.read_unread, harg3.read_unread, harg4.read_unread, harg6.read_unread, View.ld_unit_zero (S := S8x128) hz0_2, View.ld_unit_zero (S := S1000x512) hz0_2, View.ld_unit_zero (S := S1024x512) hz0_2, View.ld_unit_zero (S := S1x1) hz0_2, View.ld_unit_zero (S := S1x1x128) hz0_3]

/-- The last step reads the scratch back after its store and stores the scaled value, spread over the lanes, into the
    output block: one covering store. -/
theorem out0_C_eq (c : Dev nD) (i : grid0.Coords) (arg2 : Memref sig .tc .vmem S8x128 .i32) (harg2 : arg2.IsWhole) (arg3 : Memref sig .tc .vmem S1024x512 .f32) (harg3 : arg3.IsWhole) (arg4 : Memref sig .tc .vmem S1000x512 .bf16) (harg4 : arg4.IsWhole) (arg5 : Memref sig .tc .vmem S1x1x128 .f32) (harg5 : arg5.IsWhole) (arg6 : Memref sig .tc .vmem S1x1 .f32) (harg6 : arg6.IsWhole) (hc0 : ¬cond0_0 i) (hc1 : cond0_1 i) (x0 : Vec F S8x128 .i32) (x1 : Vec F S1024x512 .f32) (x2 : Vec F S1000x512 .bf16) (xs0 : Vec F S1x1 .f32) :
    out0_C c i arg2 harg2 arg3 harg3 arg4 harg4 arg5 harg5 arg6 harg6 hc0 hc1 x0 x1 x2 xs0 = k0_pay3 (k0_pay2 x0 x2 x1 xs0) := by
  unfold out0_C
  rw [View.read_writes_eq_canon _ _ _ (cover0_C c i arg2 harg2 arg3 harg3 arg4 harg4 arg5 harg5 arg6 harg6 hc0 hc1 x0 x1 x2 xs0)]
  unfold kernelRun0_C
  dsimp only
  sl_unfold_words
  rw [View.canon_unit_zero hz0_3, View.readCov_unit_zero (S := S1x1) _ hz0_2]
  simp only [View.readAt_eq_ld, harg2.read_unread, harg3.read_unread, harg4.read_unread, harg6.read_unread, View.ld_unit_zero (S := S8x128) hz0_2, View.ld_unit_zero (S := S1000x512) hz0_2, View.ld_unit_zero (S := S1024x512) hz0_2, View.ld_unit_zero (S := S1x1) hz0_2, View.ld_unit_zero (S := S1x1x128) hz0_3]

section Region0

-- The contents of the core's buffers when the region is entered.
variable (V : (c : Dev nD) → (b : Ref sig .tc) → Buf (Elt F) ((c : Thread nD τ).loc b))

/-- The scratch after point n: the step's sum added to zero at a first step, to what the point before left otherwise. -/
def scr (c : Dev nD) : (n : ℕ) → n < cfg0.N → Vec F S1x1 .f32
  | 0, h => k0_pay2 (iblk0 V c 0 ⟨0, h⟩) (iblk0 V c 2 ⟨0, h⟩) (iblk0 V c 1 ⟨0, h⟩) (k0_pay1 (F := F))
  | n + 1, h => k0_pay2 (iblk0 V c 0 ⟨n + 1, h⟩) (iblk0 V c 2 ⟨n + 1, h⟩) (iblk0 V c 1 ⟨n + 1, h⟩) (if (n + 1) % 16 = 0 then k0_pay1 (F := F) else scr c n (Nat.lt_of_succ_lt h))

theorem scr_succ (c : Dev nD) (n : ℕ) (h : n + 1 < cfg0.N) :
    scr V c (n + 1) h = k0_pay2 (iblk0 V c 0 ⟨n + 1, h⟩) (iblk0 V c 2 ⟨n + 1, h⟩) (iblk0 V c 1 ⟨n + 1, h⟩) (if (n + 1) % 16 = 0 then k0_pay1 (F := F) else scr V c n (Nat.lt_of_succ_lt h)) := rfl

/-- The scratch at a point does not depend on how the point is named. -/
theorem scr_congr (c : Dev nD) {n n' : ℕ} (e : n = n') (h : n < cfg0.N) (h' : n' < cfg0.N) : scr V c n h = scr V c n' h' := by
  subst e; rfl

/-- What the recursion over the cases records for the scratch is that closed form: by induction on the point. -/
theorem outsAt0_scr (c : Dev nD) : ∀ (n : ℕ) (h : n < cfg0.N), (outsAt0 V c n h).2 = scr V c n h
  | 0, h => by
    rw [outsAt0_A V c ⟨0, h⟩ rfl (by dsimp only; omega), sout0_A_eq]
    rfl
  | n + 1, h => by
    by_cases h0 : (n + 1) % 16 = 0
    · have h1 : ¬(n + 1) % 16 = 15 := by omega
      rw [outsAt0_A V c ⟨n + 1, h⟩ h0 h1, sout0_A_eq, scr_succ, if_pos h0]
    · by_cases h1 : (n + 1) % 16 = 15
      · rw [outsAt0_C V c ⟨n + 1, h⟩ h0 h1, sout0_C_eq, scr_succ, if_neg h0, ← outsAt0_scr c n]
        rfl
      · rw [outsAt0_B V c ⟨n + 1, h⟩ h0 h1, sout0_B_eq, scr_succ, if_neg h0, ← outsAt0_scr c n]
        rfl

/-- At a last step the output's buffer holds the scaled scratch, spread over the lanes. -/
theorem outsAt0_out (c : Dev nD) (t : Fin cfg0.N) (h1 : t.val % 16 = 15) :
    (outsAt0 V c t.val t.isLt).1 = k0_pay3 (scr V c t.val t.isLt) := by
  have h0 : ¬t.val % 16 = 0 := by omega
  rw [← outsAt0_scr V c t.val t.isLt, outsAt0_C V c t h0 h1, out0_C_eq, sout0_C_eq]

/-! ## The result array -/

/-- The output window's block index at point t is (t / 16, 0, 0): decided once over the grid. -/
theorem idx_facts0_3 : ∀ t : Fin cfg0.N, win0_3.index t (0 : Fin 3) = t.val / 16
    ∧ win0_3.index t (1 : Fin 3) = 0 ∧ win0_3.index t (2 : Fin 3) = 0 :=
  (by decide +kernel : ∀ t : Fin grid0.N, _)

/-- The result array: row j holds core j's scaled sum, spread over the 128 lanes. -/
def outArr (c : Dev nD) : Vec F S2x1x128 .f32 := fun j =>
  k0_pay3 (scr V c (16 * (j 0).val + 15) (by
    have h2 : (j 0).val < 2 := (j 0).isLt
    have hN : cfg0.N = 32 := N_0
    omega)) (ValueIdx.ix3 0 0 (j 2))

/-- An index of the array is in point t's block iff each coordinate is in the block's range on its axis. -/
theorem mem_blk0_3 (t : Fin cfg0.N) (i : S2x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v2).slice (win0_3.rect t)).set ↔ _
  rw [View.set_slice_whole, Rect.mem_set_unit]
  exact Iff.rfl

/-- What a last step writes back is its block of the result array: the block of point t is row t / 16, and t is
    16 · (t / 16) + 15. -/
theorem flushed0_eq (c : Dev nD) (t : Fin cfg0.N) (hf : (cfg0.win 3).flush t = true) :
    (dat0 V c).flushed 3 t = ((cfg0.win 3).blk t).view.read (Elt F) (outArr V c) := by
  have h1 : t.val % 16 = 15 := (flush0_3 t).mp hf
  show (cfg0.win 3).cut (grid0.coords t) ((dat0 V c).after 3 t) = _
  rw [after0_3, outsAt0_out V c t h1]
  obtain ⟨e0, e1, e2⟩ := idx_facts0_3 t
  funext y
  show k0_pay3 (scr V c t.val t.isLt) ((cfg0.win 3).xinj (grid0.coords t) y) = outArr V c (((cfg0.win 3).blk t).view.emb y)
  unfold outArr
  have key : ∀ (n n' : ℕ) (h : n < cfg0.N) (h' : n' < cfg0.N) (p p' : S1x1x128.Idx), n = n' → p = p' →
      k0_pay3 (scr V c n h) p = k0_pay3 (scr V c n' h') p' := by
    intro n n' h h' p p' e e'; subst e; subst e'; rfl
  have hy0 : (y 0).val < 1 := lt_of_lt_of_le (y 0).isLt (win0_3.xsize_le (grid0.coords t) 0)
  have hy1 : (y 1).val < 1 := lt_of_lt_of_le (y 1).isLt (win0_3.xsize_le (grid0.coords t) 1)
  refine key _ _ _ _ _ _ ?_ ?_
  · have he : (((cfg0.win 3).blk t).view.emb y 0).val = win0_3.index t 0 * 1 + 1 * (y 0).val := rfl
    omega
  · funext a
    apply Fin.ext
    match a with
    | ⟨0, _⟩ => show (y 0).val = 0; omega
    | ⟨1, _⟩ => show (y 1).val = 0; omega
    | ⟨2, _⟩ => show (y 2).val = win0_3.index t 2 * 128 + 1 * (y 2).val; omega

/-- So the result array ends holding it: row j is covered by the block of point 16 · j + 15, a last step. -/
theorem final0 (c : Dev nD) : (dat0 V c).arrAt 3 cfg0.N = outArr V c :=
  (dat0 V c).arrAt_eq_of_cover 3 (outArr V c) (flushed0_eq V c) fun i => by
    have hN : cfg0.N = 32 := N_0
    have hi0 : (i 0).val < 2 := (i 0).isLt
    have hi1 : (i 1).val < 1 := (i 1).isLt
    have hi2 : (i 2).val < 128 := (i 2).isLt
    refine ⟨⟨16 * (i 0).val + 15, by omega⟩, (flush0_3 _).mpr (by dsimp only; omega), ?_⟩
    rw [mem_blk0_3]
    obtain ⟨e0, e1, e2⟩ := idx_facts0_3 ⟨16 * (i 0).val + 15, by omega⟩
    intro a
    match a with
    | ⟨0, _⟩ => show win0_3.index _ (0 : Fin 3) * 1 ≤ (i 0).val ∧ (i 0).val < win0_3.index _ (0 : Fin 3) * 1 + 1; rw [e0]; dsimp only; omega
    | ⟨1, _⟩ => show win0_3.index _ (1 : Fin 3) * 1 ≤ (i 1).val ∧ (i 1).val < win0_3.index _ (1 : Fin 3) * 1 + 1; rw [e1]; omega
    | ⟨2, _⟩ => show win0_3.index _ (2 : Fin 3) * 128 ≤ (i 2).val ∧ (i 2).val < win0_3.index _ (2 : Fin 3) * 128 + 128; rw [e2]; omega

end Region0

end Cert.KernelIdeal.Hand

end
-- ==== Proof.Spec.lean ====
/-
  The number both programs compute, as one function of the three argument arrays on the extended reals.

  A sample `b` has a class label, a word; `cls` reads it as a class below 1000. The first term is the squared distance of
  every sample to the centre of its class, summed over the 512 features and the 32768 samples, times 2⁻¹⁶ — half the
  mean squared distance, since 2 · 32768 = 2¹⁶. The second term is half the sum, over ordered pairs of distinct classes,
  of one plus the cosine of their centres, a centre's length being kept at least ε.
-/
import Idealize.ShloMosaic.PureOps.Ideal
import Idealize.ShloMosaic.Lib.ValueIdx

noncomputable section

open scoped BigOperators

namespace Cert.Loss

open Idealize.ShloMosaic Idealize.ShloMosaic.ValueIdx

/-- The labels, the features and the class centres, by shape. -/
abbrev SLab : Shape := ⟨1, ![32768]⟩
abbrev SFeat : Shape := ⟨2, ![32768, 512]⟩
abbrev SCen : Shape := ⟨2, ![1000, 512]⟩

/-- The class a label word names: its unsigned value reduced into the class range (the word's own value when it is below 1000). -/
def cls (w : BitVec 32) : Fin 1000 := ⟨w.toNat % 1000, Nat.mod_lt _ (by decide)⟩

theorem cls_val_of_lt (w : BitVec 32) (h : w.toNat < 1000) : (cls w).val = w.toNat := Nat.mod_eq_of_lt h

/-- The squared distance of sample `b` to the centre of its class, summed over the features. -/
def rowSq (lab : SLab.Idx → BitVec 32) (x : SFeat.Idx → EReal) (cen : SCen.Idx → EReal) (b : Fin 32768) : EReal :=
  ∑ d : Fin 512, (x (ix2 b d) - cen (ix2 (cls (lab (ix1 b))) d)) * (x (ix2 b d) - cen (ix2 (cls (lab (ix1 b))) d))

/-- Those distances summed over all samples. -/
def centerSum (lab : SLab.Idx → BitVec 32) (x : SFeat.Idx → EReal) (cen : SCen.Idx → EReal) : EReal :=
  ∑ b : Fin 32768, rowSq lab x cen b

/-- The length of centre `i`, kept at least ε (the f32 nearest 10⁻⁸, the same word in both programs). -/
def clen (cen : SCen.Idx → EReal) (i : Fin 1000) : EReal :=
  max (Ideal.sqrt (∑ d : Fin 512, cen (ix2 i d) * cen (ix2 i d))) (Ideal.ofBits .f32 0x322BCC77#32)

/-- Centre `i` scaled to that length, feature `d`. -/
def dir (cen : SCen.Idx → EReal) (i : Fin 1000) (d : Fin 512) : EReal := Ideal.div (cen (ix2 i d)) (clen cen i)

/-- The cosine of centres `i` and `j`. -/
def cosine (cen : SCen.Idx → EReal) (i j : Fin 1000) : EReal := ∑ d : Fin 512, dir cen i d * dir cen j d

/-- One plus the cosine, summed over ordered pairs of distinct classes. -/
def islandSum (cen : SCen.Idx → EReal) : EReal :=
  ∑ i : Fin 1000, ∑ j : Fin 1000, if i ≠ j then cosine cen i j + Ideal.ofBits .f32 0x3F800000#32 else 0

/-- The loss: 2⁻¹⁶ times the summed squared distances, plus one half of the pair sum. -/
def G (lab : SLab.Idx → BitVec 32) (x : SFeat.Idx → EReal) (cen : SCen.Idx → EReal) : EReal :=
  centerSum lab x cen * Ideal.ofBits .f32 0x37800000#32 + Ideal.ofBits .f32 0x3F000000#32 * islandSum cen

end Cert.Loss

end
-- ==== Proof.PayCenter.lean ====
/-
  The three values the centre-loss kernel writes, read as extended reals.

  The scratch cell starts at zero; each tile of 1024 samples adds the squared distances of its samples to the centres of
  their classes, summed over the 512 features; the last tile's total is scaled by 2⁻¹⁶. The centre of a sample's class is
  obtained as a product with a one-hot row: the row of sample r has a 1 at the class its label names and 0 elsewhere, so
  the sum over the 1000 classes of that row times the centres' column d is the class centre's feature d, the label
  word being below 1000.
-/
import proofs.«403618_j12678743457990_2_alg».proof.Proof.Gen.KernelIdeal.Skeleton
import proofs.«403618_j12678743457990_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-- The 8×128×1000 block cast to 1024×1000: row r is the pair (r / 128, r % 128). -/
theorem cast3_apply {α : Type} (y : S8x128x1000.Idx → α) (r : Fin 1024) (k : Fin 1000) :
    shapeCast S1024x1000 y shapeCasts_S8x128x1000_S1024x1000 (ix2 r k)
      = y (ix3 (⟨r.val / 128, by have := r.isLt; omega⟩ : Fin 8) (⟨r.val % 128, Nat.mod_lt _ (by decide)⟩ : Fin 128) k) :=
  shapeCast_apply y _ _ _ (by
    rw [Shape.rowMajor_val_three, Shape.rowMajor_val_two]
    show ((r.val / 128) * 128 + r.val % 128) * 1000 + k.val = r.val * 1000 + k.val
    have := Nat.div_add_mod r.val 128
    omega)

/-- The label block with a unit third axis broadcast along it: every entry of the third axis is the label. -/
theorem lab3_apply {α : Type} (l : S8x128.Idx → α) (p : Fin 8) (q : Fin 128) (k : Fin 1000) :
    broadcastTo S8x128x1000 (shapeCast S8x128x1 (shapeCast S8x128 l shapeCasts_S8x128_S8x128) shapeCasts_S8x128_S8x128x1)
      broadcasts_S8x128x1_S8x128x1000 (ix3 p q k) = l (ix2 p q) := by
  rw [shapeCast_self]
  rw [broadcastTo_apply _ broadcasts_S8x128x1_S8x128x1000 (ix3 p q k) (ix3 p q (0 : Fin 1)) (fun a => by
    match a with
    | ⟨0, _⟩ => rfl
    | ⟨1, _⟩ => rfl
    | ⟨2, _⟩ => rfl)]
  exact shapeCast_apply l _ _ _ (by
    rw [Shape.rowMajor_val_three, Shape.rowMajor_val_two]
    show p.val * 128 + q.val = (p.val * 128 + q.val) * 1 + 0
    omega)

/-- The iota along the third axis reads that coordinate as a word. -/
theorem iota3_apply (p : Fin 8) (q : Fin 128) (k : Fin 1000) :
    iota .tc S8x128x1000 32 [2] iota_S8x128x1000_d2_w32 (ix3 p q k) = BitVec.ofNat 32 k.val :=
  iota_single_apply .tc S8x128x1000 32 2 iota_S8x128x1000_d2_w32 (ix3 p q k)

/-- A compared bit, widened and converted, is 1 where the words agree and 0 where they differ. -/
theorem bit_val (a b : BitVec 32) :
    ((((IntOp.cmpi .eq a b).setWidth 32).toInt : ℝ) : EReal) = if a = b then 1 else 0 := by
  rw [toInt_setWidth_bit]
  by_cases h : a = b
  · subst h; simp [IntOp.cmpi]
  · rw [if_neg h]; simp [IntOp.cmpi, h]

/-- The one-hot entry of the pair (p, q) at class k: 1 where the label word is the word of k, 0 elsewhere. -/
theorem hot_apply (lab8 : Vec Ideal S8x128 .i32) (p : Fin 8) (q : Fin 128) (k : Fin 1000) :
    (truncf .bf16 (sitofp .f32 (extui 32 (cmpi .eq
        (broadcastTo S8x128x1000 (shapeCast S8x128x1 (shapeCast S8x128 lab8 shapeCasts_S8x128_S8x128) shapeCasts_S8x128_S8x128x1) broadcasts_S8x128x1_S8x128x1000)
        (iota .tc S8x128x1000 32 [2] iota_S8x128x1000_d2_w32)) natLt_1_32)) bitsLt_bf16_f32 : FVec Ideal S8x128x1000 .bf16) (ix3 p q k)
      = if lab8 (ix2 p q) = BitVec.ofNat 32 k.val then (1 : EReal) else 0 := by
  show ((((IntOp.cmpi .eq
        (broadcastTo S8x128x1000 (shapeCast S8x128x1 (shapeCast S8x128 lab8 shapeCasts_S8x128_S8x128) shapeCasts_S8x128_S8x128x1) broadcasts_S8x128x1_S8x128x1000 (ix3 p q k))
        (iota .tc S8x128x1000 32 [2] iota_S8x128x1000_d2_w32 (ix3 p q k))).setWidth 32).toInt : ℝ) : EReal) = _
  rw [lab3_apply, iota3_apply, bit_val]

/-- A one-hot weighting of the classes picks the label's class, when the label word is below 1000. -/
theorem onehot_sum (w : BitVec 32) (hw : w.toNat < 1000) (c : Fin 1000 → EReal) :
    ∑ k : Fin 1000, (if w = BitVec.ofNat 32 k.val then (1 : EReal) else 0) * c k = c (Cert.Loss.cls w) := by
  rw [Finset.sum_eq_single (Cert.Loss.cls w)]
  · rw [if_pos, one_mul]
    apply BitVec.eq_of_toNat_eq
    rw [BitVec.toNat_ofNat, Cert.Loss.cls_val_of_lt w hw]
    omega
  · intro k _ hk
    rw [if_neg, zero_mul]
    intro h
    apply hk
    apply Fin.ext
    rw [Cert.Loss.cls_val_of_lt w hw, h, BitVec.toNat_ofNat]
    have := k.isLt
    omega
  · intro h; exact absurd (Finset.mem_univ _) h

/-! The product's operand indices, axis by axis. -/

theorem lhs_ax0 (i : S1024x512.Idx) (q : dot_S1024x1000_S1000x512_S1024x512_1_0_0_1_n_n.contr.Idx) :
    (dot_S1024x1000_S1000x512_S1024x512_1_0_0_1_n_n.lhsIdx i q 0).val = (i 0).val := by
  unfold DotDims.lhsIdx
  rw [dif_neg (show ¬(0 : Fin S1024x1000.rank) ∈ dot_S1024x1000_S1000x512_S1024x512_1_0_0_1_n_n.lhsBatch by decide), dif_pos (show (0 : Fin S1024x1000.rank) ∈ dot_S1024x1000_S1000x512_S1024x512_1_0_0_1_n_n.lhsNonContracting by decide)]
  rfl
theorem lhs_ax1 (i : S1024x512.Idx) (q : dot_S1024x1000_S1000x512_S1024x512_1_0_0_1_n_n.contr.Idx) :
    (dot_S1024x1000_S1000x512_S1024x512_1_0_0_1_n_n.lhsIdx i q 1).val = (q ⟨0, by decide⟩).val :=
  dot_S1024x1000_S1000x512_S1024x512_1_0_0_1_n_n.lhsIdx_val_of_single rfl i q
theorem rhs_ax0 (i : S1024x512.Idx) (q : dot_S1024x1000_S1000x512_S1024x512_1_0_0_1_n_n.contr.Idx) :
    (dot_S1024x1000_S1000x512_S1024x512_1_0_0_1_n_n.rhsIdx i q 0).val = (q ⟨0, by decide⟩).val :=
  dot_S1024x1000_S1000x512_S1024x512_1_0_0_1_n_n.rhsIdx_val_of_single rfl i q
theorem rhs_ax1 (i : S1024x512.Idx) (q : dot_S1024x1000_S1000x512_S1024x512_1_0_0_1_n_n.contr.Idx) :
    (dot_S1024x1000_S1000x512_S1024x512_1_0_0_1_n_n.rhsIdx i q 1).val = (i 1).val := by
  unfold DotDims.rhsIdx
  rw [dif_neg (show ¬(1 : Fin S1000x512.rank) ∈ dot_S1024x1000_S1000x512_S1024x512_1_0_0_1_n_n.rhsBatch by decide), dif_pos (show (1 : Fin S1000x512.rank) ∈ dot_S1024x1000_S1000x512_S1024x512_1_0_0_1_n_n.rhsNonContracting by decide)]
  rfl

/-- The product onto the zero accumulator, at row r and feature d: the sum over the 1000 classes. -/
theorem prod_apply (a : FVec Ideal S1024x1000 .bf16) (c : FVec Ideal S1000x512 .bf16) (r : Fin 1024) (d : Fin 512) :
    matmul dot_S1024x1000_S1000x512_S1024x512_1_0_0_1_n_n none a c (constant S1024x512 .f32 0x00000000#32) (ix2 r d)
      = ∑ k : Fin 1000, a (ix2 r k) * c (ix2 k d) := by
  simp only [matmul]
  rw [Ideal.matmul_constant_zero_apply, ← Equiv.sum_comp (contrEquiv1 dot_S1024x1000_S1000x512_S1024x512_1_0_0_1_n_n 1000 rfl rfl).symm]
  refine Finset.sum_congr rfl fun k _ => ?_
  have hk := contrEquiv1_symm_val dot_S1024x1000_S1000x512_S1024x512_1_0_0_1_n_n 1000 rfl rfl k
  have el : dot_S1024x1000_S1000x512_S1024x512_1_0_0_1_n_n.lhsIdx (ix2 r d) ((contrEquiv1 dot_S1024x1000_S1000x512_S1024x512_1_0_0_1_n_n 1000 rfl rfl).symm k) = ix2 r k := funext fun a => Fin.ext (by
    match a with
    | ⟨0, _⟩ => exact lhs_ax0 _ _
    | ⟨1, _⟩ => exact (lhs_ax1 _ _).trans hk)
  have er : dot_S1024x1000_S1000x512_S1024x512_1_0_0_1_n_n.rhsIdx (ix2 r d) ((contrEquiv1 dot_S1024x1000_S1000x512_S1024x512_1_0_0_1_n_n 1000 rfl rfl).symm k) = ix2 k d := funext fun a => Fin.ext (by
    match a with
    | ⟨0, _⟩ => exact (rhs_ax0 _ _).trans hk
    | ⟨1, _⟩ => exact rhs_ax1 _ _)
  rw [el, er]

/-- The sum over the 512 features of row r. -/
theorem rowSum_apply (v : FVec Ideal S1024x512 .f32) (r : Fin 1024) :
    multiReduction .add [1] S1024 v 0x00000000#32 reduces_S1024x512_S1024 (.inl rfl) rfl (ix1 r) = ∑ d : Fin 512, v (ix2 r d) := by
  refine (Ideal.multiReduction_add_single v _ reduces_S1024x512_S1024 (.inl rfl) rfl (ix1 r)).trans ?_
  refine Finset.sum_congr rfl fun d _ => congrArg v (funext fun a => Fin.ext ?_)
  match a with
  | ⟨0, _⟩ => rfl
  | ⟨1, _⟩ => rfl

/-- The sum over the 1024 rows of a one-column array. -/
theorem colSum_apply (v : FVec Ideal S1024x1 .f32) :
    multiReduction .add [0] S1 v 0x00000000#32 reduces_S1024x1_S1 (.inl rfl) rfl (ix1 (0 : Fin 1)) = ∑ r : Fin 1024, v (ix2 r (0 : Fin 1)) := by
  refine (Ideal.multiReduction_add_single v _ reduces_S1024x1_S1 (.inl rfl) rfl (ix1 (0 : Fin 1))).trans ?_
  refine Finset.sum_congr rfl fun r _ => congrArg v (funext fun a => Fin.ext ?_)
  match a with
  | ⟨0, _⟩ => rfl
  | ⟨1, _⟩ => rfl

/-- A column vector of 1024 entries cast from the vector of its entries. -/
theorem castCol_apply {α : Type} (v : S1024.Idx → α) (r : Fin 1024) (u : Fin 1) :
    shapeCast S1024x1 v shapeCasts_S1024_S1024x1 (ix2 r u) = v (ix1 r) :=
  shapeCast_apply v _ _ _ (by
    rw [Shape.rowMajor_val_two, Shape.rowMajor_val_one]
    show r.val = r.val * 1 + u.val
    have := u.isLt
    omega)

/-- Row r of the product at feature d is the centre of the sample's class, the labels being below 1000. -/
theorem centre_apply (lab8 : Vec Ideal S8x128 .i32) (cen : Vec Ideal S1000x512 .bf16) (h : ∀ j, (lab8 j).toNat < 1000)
    (r : Fin 1024) (d : Fin 512) :
    matmul dot_S1024x1000_S1000x512_S1024x512_1_0_0_1_n_n none
        (shapeCast S1024x1000
          (truncf .bf16 (sitofp .f32 (extui 32 (cmpi .eq
            (broadcastTo S8x128x1000 (shapeCast S8x128x1 (shapeCast S8x128 lab8 shapeCasts_S8x128_S8x128) shapeCasts_S8x128_S8x128x1) broadcasts_S8x128x1_S8x128x1000)
            (iota .tc S8x128x1000 32 [2] iota_S8x128x1000_d2_w32)) natLt_1_32)) bitsLt_bf16_f32 : FVec Ideal S8x128x1000 .bf16)
          shapeCasts_S8x128x1000_S1024x1000)
        (shapeCast S1000x512 cen shapeCasts_S1000x512_S1000x512 : FVec Ideal S1000x512 .bf16) (constant S1024x512 .f32 0x00000000#32) (ix2 r d)
      = cen (ix2 (Cert.Loss.cls (lab8 (ix2 ⟨r.val / 128, by have := r.isLt; omega⟩ ⟨r.val % 128, Nat.mod_lt _ (by decide)⟩))) d) := by
  rw [prod_apply, shapeCast_self (s := S1000x512) cen,
    ← onehot_sum (lab8 (ix2 ⟨r.val / 128, by have := r.isLt; omega⟩ ⟨r.val % 128, Nat.mod_lt _ (by decide)⟩)) (h _) (fun k => cen (ix2 k d))]
  refine Finset.sum_congr rfl fun k _ => ?_
  rw [cast3_apply, hot_apply]

/-- The squared distances of the tile's 1024 samples to their class centres, summed over features and samples. -/
def tileSq (lab8 : Vec Ideal S8x128 .i32) (cen : Vec Ideal S1000x512 .bf16) (x : Vec Ideal S1024x512 .f32) : EReal :=
  ∑ r : Fin 1024, ∑ d : Fin 512,
    (x (ix2 r d) - cen (ix2 (Cert.Loss.cls (lab8 (ix2 ⟨r.val / 128, by have := r.isLt; omega⟩ ⟨r.val % 128, Nat.mod_lt _ (by decide)⟩))) d))
      * (x (ix2 r d) - cen (ix2 (Cert.Loss.cls (lab8 (ix2 ⟨r.val / 128, by have := r.isLt; omega⟩ ⟨r.val % 128, Nat.mod_lt _ (by decide)⟩))) d))

/-- The first payload, the scratch cell's initial value: zero. -/
theorem pay1_eq : k0_pay1 (F := Ideal) = fun _ => (0 : EReal) := by
  funext j
  unfold k0_pay1
  rw [shapeCast_self]
  exact Ideal.ofBits_zero_f32

/-- The second payload: the scratch value plus the tile's summed squared distances. -/
theorem pay2_eq (lab8 : Vec Ideal S8x128 .i32) (cen : Vec Ideal S1000x512 .bf16) (x : Vec Ideal S1024x512 .f32) (s : Vec Ideal S1x1 .f32)
    (h : ∀ j, (lab8 j).toNat < 1000) :
    k0_pay2 (F := Ideal) lab8 cen x s = fun _ => s (ix2 0 0) + tileSq lab8 cen x := by
  funext j
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  unfold k0_pay2
  rw [shapeCast_self, addf_apply, shapeCast_a_1a_apply, colSum_apply]
  refine congrArg (s (ix2 0 0) + ·) ?_
  unfold tileSq
  refine Finset.sum_congr rfl fun r _ => ?_
  rw [castCol_apply, rowSum_apply]
  refine Finset.sum_congr rfl fun d _ => ?_
  rw [mulf_apply, subf_apply, centre_apply lab8 cen h r d]

/-- The third payload: the scratch value times 2⁻¹⁶, in every lane. -/
theorem pay3_eq (s : Vec Ideal S1x1 .f32) : k0_pay3 (F := Ideal) s = fun _ => s (ix2 0 0) * Ideal.ofBits .f32 0x37800000#32 := by
  funext j
  unfold k0_pay3
  rw [shapeCast_self,
    broadcastTo_apply _ broadcasts_S1x1x1_S1x1x128 j (ix3 (0 : Fin 1) (0 : Fin 1) (0 : Fin 1)) (fun a => by
      match a with
      | ⟨0, _⟩ => rfl
      | ⟨1, _⟩ => rfl
      | ⟨2, _⟩ => rfl),
    shapeCast_apply _ shapeCasts_S1x1_S1x1x1 (ix3 (0 : Fin 1) (0 : Fin 1) (0 : Fin 1)) (ix2 (0 : Fin 1) (0 : Fin 1)) (by
      rw [Shape.rowMajor_val_three, Shape.rowMajor_val_two]
      rfl)]
  rfl

/-- A square of an extended real is not negative. -/
theorem sq_nonneg' (y : EReal) : 0 ≤ y * y := by
  by_cases hy : 0 ≤ y
  · exact EReal.mul_nonneg hy hy
  · have hn : 0 ≤ -y := by
      have := le_of_not_ge hy
      exact EReal.neg_nonneg.mpr this
    have : y * y = (-y) * (-y) := (neg_mul_neg y y).symm
    rw [this]
    exact EReal.mul_nonneg hn hn

/-- The tile's summed squared distances are not negative. -/
theorem tileSq_nonneg (lab8 : Vec Ideal S8x128 .i32) (cen : Vec Ideal S1000x512 .bf16) (x : Vec Ideal S1024x512 .f32) :
    0 ≤ tileSq lab8 cen x := by
  unfold tileSq
  exact Finset.sum_nonneg fun r _ => Finset.sum_nonneg fun d _ => sq_nonneg' _

end Cert.KernelIdeal.PayValue

end
-- ==== Proof.SumLaws.lean ====
/-
  The laws of addition on the extended reals that let a sum taken in one pass be compared with the same sum taken
  tile by tile on two cores.

  The 32768 samples are walked in 32 tiles of 1024. A core owns sixteen consecutive tiles and keeps a running sum that
  starts from 0 at its first tile; after its last tile the running sum is scaled by a factor k, and the two scaled sums
  are added. Every tile's share is a sum of squares, so it is ≥ 0: no ⊤ + ⊥ can arise, addition is commutative and
  associative, and (a + b) * k = a * k + b * k for a, b ≥ 0. So the two scaled halves add up to the whole sum scaled.
-/
import proofs.«403618_j12678743457990_2_alg».proof.Proof.Spec
import Mathlib.Data.EReal.Operations
import Mathlib.Algebra.BigOperators.Fin
import Mathlib.Data.Fintype.BigOperators
import Mathlib.Logic.Equiv.Fin.Basic

noncomputable section

open scoped BigOperators

namespace Cert.Loss

open Idealize.ShloMosaic Idealize.ShloMosaic.ValueIdx

/-- A square of an extended real is ≥ 0: both factors have the same sign. -/
theorem mul_self_nonneg_ereal (y : EReal) : 0 ≤ y * y := by
  rcases le_total 0 y with h | h
  · exact EReal.mul_nonneg_iff.mpr (Or.inl ⟨h, h⟩)
  · exact EReal.mul_nonneg_iff.mpr (Or.inr ⟨h, h⟩)

/-- The squared distance of a sample to its centre is a sum of squares. -/
theorem rowSq_nonneg (lab : SLab.Idx → BitVec 32) (x : SFeat.Idx → EReal) (cen : SCen.Idx → EReal) (b : Fin 32768) :
    0 ≤ rowSq lab x cen b :=
  Finset.sum_nonneg fun _ _ => mul_self_nonneg_ereal _

/-- Tile t's share of the summed squared distances: samples 1024·t … 1024·t + 1023. -/
def tile (lab : SLab.Idx → BitVec 32) (x : SFeat.Idx → EReal) (cen : SCen.Idx → EReal) (t : Fin 32) : EReal :=
  ∑ r : Fin 1024, rowSq lab x cen ⟨1024 * t.val + r.val, by have := t.isLt; have := r.isLt; omega⟩

theorem tile_nonneg (lab : SLab.Idx → BitVec 32) (x : SFeat.Idx → EReal) (cen : SCen.Idx → EReal) (t : Fin 32) :
    0 ≤ tile lab x cen t :=
  Finset.sum_nonneg fun _ _ => rowSq_nonneg lab x cen _

/-- A sample number below 32768 is 1024·t + r for exactly one tile t below 32 and one place r below 1024, so the sum
    over all samples is the sum over the tiles of the tiles' shares. -/
theorem centerSum_eq_tiles (lab : SLab.Idx → BitVec 32) (x : SFeat.Idx → EReal) (cen : SCen.Idx → EReal) :
    centerSum lab x cen = ∑ t : Fin 32, tile lab x cen t := by
  unfold centerSum tile
  rw [← Fintype.sum_prod_type']
  symm
  refine Fintype.sum_equiv ((finProdFinEquiv (m := 32) (n := 1024)).trans (finCongr (by norm_num))) _ _ ?_
  rintro ⟨t, r⟩
  congr 1
  apply Fin.ext
  simp [finProdFinEquiv]
  omega

/-- What a core's running sum holds after tile n of the walk over all tiles, n counted from 0: reset at the tiles that
    are a multiple of 16. -/
def acc (T : ℕ → EReal) : ℕ → EReal
  | 0 => 0 + T 0
  | n + 1 => (if (n + 1) % 16 = 0 then 0 else acc T n) + T (n + 1)

/-- After the i-th tile of the c-th block of sixteen the running sum is the sum of that block's tiles 0 … i. -/
theorem acc_eq (T : ℕ → EReal) (c i : ℕ) (hi : i < 16) :
    acc T (16 * c + i) = ∑ j ∈ Finset.range (i + 1), T (16 * c + j) := by
  induction i with
  | zero =>
    cases c with
    | zero => simp [acc]
    | succ c =>
      have h : 16 * (c + 1) + 0 = (16 * c + 15) + 1 := by ring
      rw [h, acc, if_pos (by omega)]
      simp
      congr 1
  | succ i ih =>
    have h : 16 * c + (i + 1) = (16 * c + i) + 1 := by ring
    rw [h, acc, if_neg (by omega), ih (by omega), Finset.sum_range_succ _ (i + 1), h]

/-- The two cores' scaled running sums add up to the whole sum scaled: each half is ≥ 0, so scaling distributes. -/
theorem scaled_halves (T : ℕ → EReal) (hT : ∀ n, 0 ≤ T n) (k : EReal) (hk : 0 ≤ k) :
    acc T 15 * k + acc T 31 * k = (∑ n ∈ Finset.range 32, T n) * k := by
  have h0 : acc T 15 = ∑ j ∈ Finset.range 16, T j := by
    simpa using acc_eq T 0 15 (by norm_num)
  have h1 : acc T 31 = ∑ j ∈ Finset.range 16, T (16 + j) := by
    simpa using acc_eq T 1 15 (by norm_num)
  have ha : 0 ≤ ∑ j ∈ Finset.range 16, T j := Finset.sum_nonneg fun _ _ => hT _
  have hb : 0 ≤ ∑ j ∈ Finset.range 16, T (16 + j) := Finset.sum_nonneg fun _ _ => hT _
  rw [h0, h1, ← EReal.right_distrib_of_nonneg ha hb, ← Finset.sum_range_add T 16 16]

theorem sum_range_eq_fin (T : ℕ → EReal) : (∑ n ∈ Finset.range 32, T n) = ∑ t : Fin 32, T t.val :=
  Finset.sum_range T

/-- The scaling word has sign 0, exponent field 111 and fraction 0: it denotes 2²³ · 2^(111 − 127 − 23) = 2⁻¹⁶ > 0. -/
theorem ofBits_k_nonneg : (0 : EReal) ≤ Ideal.ofBits .f32 0x37800000#32 := by
  simp [Ideal.ofBits, Ideal.ieee, -EReal.coe_mul]

end Cert.Loss

end
-- ==== Proof.TileBlocks.lean ====
/-
  The three input blocks the first kernel's body sees at grid point t are tile t of the argument arrays.

  Before the kernel the labels are viewed as 256 rows of 128 (entry (a, l) is label 128·a + l) and the centres are
  converted to the narrower float format, which keeps their extended-real values; the features are as launched. At
  point t the label window reads rows 8t … 8t + 7, the feature window rows 1024t … 1024t + 1023, the centre window the
  whole array. So entry (r8, l) of the label block is label 1024·t + 128·r8 + l, and row r of the tile reads the label
  at (r / 128, r % 128), which is label 1024·t + r: the block sums are tile t's share of the specification's sum.
-/
import proofs.«403618_j12678743457990_2_alg».proof.Proof.MainRun
import proofs.«403618_j12678743457990_2_alg».proof.Proof.CenterRegion
import proofs.«403618_j12678743457990_2_alg».proof.Proof.PayCenter
import proofs.«403618_j12678743457990_2_alg».proof.Proof.SumLaws
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- The labels as the first kernel finds them: the 32768 labels viewed as 256 rows of 128. -/
theorem W1_main_v0 (c : Dev nD) :
    (W1 m c (Proc.devRef .tc main_v0) : S256x128.Idx → BitVec 32)
      = shapeCast S256x128 (W0 m c (Proc.devRef .tc main_arg0)) shapeCasts_S32768_S256x128 := by
  show StableHlo.after hostOps0 (W0 m c) (Proc.devRef .tc main_v0) = _
  after_results
  rfl

/-- The centres as the first kernel finds them: converted to the narrower format, the same extended reals. -/
theorem W1_main_v1 (c : Dev nD) :
    (W1 m c (Proc.devRef .tc main_v1) : S1000x512.Idx → EReal)
      = (truncf .bf16 (W0 m c (Proc.devRef .tc main_arg2) : FVec Ideal S1000x512 .f32) bitsLt_bf16_f32 : FVec Ideal S1000x512 .bf16) := by
  show StableHlo.after hostOps0 (W0 m c) (Proc.devRef .tc main_v1) = _
  after_results

/-- The features as the first kernel finds them: as launched. -/
theorem W1_main_arg1 (c : Dev nD) : W1 m c (Proc.devRef .tc main_arg1) = m ((c : Thread nD τ).loc main_arg1) :=
  StableHlo.after_of_writes_sub hostOps0 _ hostOps0_writes (by decide)

/-- The block each window reads at grid point t: block (t, 0) of the labels and of the features, the one block of the centres. -/
theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = 0 ∧ win0_2.index t 1 = 0 := by decide +kernel

/-- The label block at point t, entry (r8, l): label 1024·t + 128·r8 + l. -/
theorem lab_block (c : Dev nD) (t : Fin cfg0.N) (r8 : Fin 8) (l : Fin 128) :
    (iblk0 (V1 m) c 0 t : Vec Ideal S8x128 .i32) (ValueIdx.ix2 r8 l)
      = m ((c : Thread nD τ).loc main_arg0) (ValueIdx.ix1 ⟨1024 * t.val + 128 * r8.val + l.val, by
          have := lt_of_lt_of_eq t.isLt N_0; have := r8.isLt; have := l.isLt; omega⟩) := by
  unfold iblk0
  rw [View.read_apply]
  show (W1 m c (Proc.devRef .tc main_v0) : S256x128.Idx → BitVec 32) _ = _
  rw [W1_main_v0]
  refine shapeCast_apply (s := S32768) (t := S256x128) _ shapeCasts_S32768_S256x128 _ (ValueIdx.ix1 ⟨1024 * t.val + 128 * r8.val + l.val, by
          have := lt_of_lt_of_eq t.isLt N_0; have := r8.isLt; have := l.isLt; omega⟩) ?_
  rw [Shape.rowMajor_val_one, Shape.rowMajor_val_two]
  show 1024 * t.val + 128 * r8.val + l.val = (win0_0.index t 0 * 8 + 1 * r8.val) * 128 + (win0_0.index t 1 * 128 + 1 * l.val)
  rw [(idx0 t).1, (idx0 t).2]
  omega

/-- The feature block at point t, entry (r, d): feature d of sample 1024·t + r. -/
theorem feat_block (c : Dev nD) (t : Fin cfg0.N) (r : Fin 1024) (d : Fin 512) :
    (iblk0 (V1 m) c 1 t : Vec Ideal S1024x512 .f32) (ValueIdx.ix2 r d)
      = m ((c : Thread nD τ).loc main_arg1) (ValueIdx.ix2 ⟨1024 * t.val + r.val, by
          have := lt_of_lt_of_eq t.isLt N_0; have := r.isLt; omega⟩ d) := by
  unfold iblk0
  rw [View.read_apply]
  show (W1 m c (Proc.devRef .tc main_arg1) : S32768x512.Idx → EReal) _ = _
  rw [W1_main_arg1]
  show m (c.tc.loc main_arg1) _ = m (c.tc.loc main_arg1) _
  congr 1
  funext a
  apply Fin.ext
  match a with
  | ⟨0, _⟩ => show win0_1.index t 0 * 1024 + 1 * r.val = 1024 * t.val + r.val; rw [(idx1 t).1]; omega
  | ⟨1, _⟩ => show win0_1.index t 1 * 512 + 1 * d.val = d.val; rw [(idx1 t).2]; omega

/-- The centre block at any point: all the centres. -/
theorem cen_block (c : Dev nD) (t : Fin cfg0.N) :
    (iblk0 (V1 m) c 2 t : Vec Ideal S1000x512 .bf16) = m ((c : Thread nD τ).loc main_arg2) := by
  funext j
  unfold iblk0
  rw [View.read_apply]
  show (W1 m c (Proc.devRef .tc main_v1) : S1000x512.Idx → EReal) _ = _
  rw [W1_main_v1]
  show m (c.tc.loc main_arg2) _ = m (c.tc.loc main_arg2) j
  congr 1
  funext a
  apply Fin.ext
  match a with
  | ⟨0, _⟩ => show win0_2.index t 0 * 1000 + 1 * (j 0).val = (j 0).val; rw [(idx2 t).1]; omega
  | ⟨1, _⟩ => show win0_2.index t 1 * 512 + 1 * (j 1).val = (j 1).val; rw [(idx2 t).2]; omega

/-- Labels below 1000 everywhere are below 1000 in every block. -/
theorem lab_block_lt (c : Dev nD) (t : Fin cfg0.N) (hlab : ∀ b, (m ((c : Thread nD τ).loc main_arg0) b).toNat < 1000) :
    ∀ j, ((iblk0 (V1 m) c 0 t : Vec Ideal S8x128 .i32) j).toNat < 1000 := by
  intro j
  obtain ⟨p, q, rfl⟩ : ∃ (p : Fin 8) (q : Fin 128), j = ValueIdx.ix2 p q := ⟨j 0, j 1, ValueIdx.eq_ix2 j⟩
  rw [lab_block]
  exact hlab _

/-- The summed squared distances over the blocks at point t are tile t's share of the specification's sum. -/
theorem tileSq_blocks (c : Dev nD) (t : Fin cfg0.N) :
    Cert.KernelIdeal.PayValue.tileSq (iblk0 (V1 m) c 0 t) (iblk0 (V1 m) c 2 t) (iblk0 (V1 m) c 1 t)
      = Cert.Loss.tile (m ((c : Thread nD τ).loc main_arg0)) (m ((c : Thread nD τ).loc main_arg1)) (m ((c : Thread nD τ).loc main_arg2)) ⟨t.val, lt_of_lt_of_eq t.isLt N_0⟩ := by
  unfold Cert.KernelIdeal.PayValue.tileSq Cert.Loss.tile
  refine Finset.sum_congr rfl fun r _ => ?_
  unfold Cert.Loss.rowSq
  refine Finset.sum_congr rfl fun d _ => ?_
  rw [feat_block, cen_block, lab_block]
  have e : (⟨1024 * t.val + 128 * (r.val / 128) + r.val % 128, by
      have := lt_of_lt_of_eq t.isLt N_0; have := r.isLt; have := Nat.div_add_mod r.val 128; omega⟩ : Fin 32768)
      = ⟨1024 * t.val + r.val, by have := lt_of_lt_of_eq t.isLt N_0; have := r.isLt; omega⟩ :=
    Fin.ext (by have := Nat.div_add_mod r.val 128; show 1024 * t.val + 128 * (r.val / 128) + r.val % 128 = 1024 * t.val + r.val; omega)
  rw [e]

end Cert.KernelIdeal.Hand

end
-- ==== Proof.PayIsland.lean ====
/-
  The island kernel's stored value, read on the extended reals.

  From the 1000×512 centres the kernel forms, row by row, the square root of the sum of squares, keeps it at least ε,
  divides each row by that length, multiplies the 1000×512 array of directions by its own transpose — entry (i, j) is the
  sum over the 512 features of direction i times direction j, the cosine of the two centres —, adds one, puts zero on the
  diagonal (row number equal to column number, both below 1000, so their 32-bit words are equal exactly when the numbers
  are), and sums over the columns and then over the rows. Each stage is read at an index by one small lemma over a variable
  of the stage's own type; the last theorem chains them into the specification's pair sum.
-/
import proofs.«403618_j12678743457990_2_alg».proof.Proof.Gen.KernelIdeal.Skeleton
import proofs.«403618_j12678743457990_2_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.PayIsland

open Cert.KernelIdeal Cert.KernelIdeal.Gen Idealize.ShloMosaic Idealize.ShloMosaic.ValueIdx

/-! ## The sums along one axis, read at an index -/

/-- The sum along the second axis of a 1000×512 array, at row `i`: the sum of that row's 512 entries. -/
theorem rowSum512 (x : FVec Ideal S1000x512 .f32) (i : Fin 1000) :
    multiReduction (F := Ideal) .add [1] S1000 x 0x00000000#32 reduces_S1000x512_S1000 (.inl rfl) rfl (ix1 i)
      = ∑ d : Fin 512, x (ix2 i d) := by
  refine (Ideal.multiReduction_add_single x _ reduces_S1000x512_S1000 _ _ (ix1 i)).trans ?_
  refine Finset.sum_congr rfl fun d _ => congrArg x ?_
  funext c
  match c with
  | ⟨0, _⟩ => exact Fin.ext (by simp [Shape.Reduces.lift_val, Shape.Reduces.liftVal])
  | ⟨1, _⟩ => exact Fin.ext (by simp [Shape.Reduces.lift_val, Shape.Reduces.liftVal])

/-- The sum along the second axis of a 1000×1000 array, at row `i`. -/
theorem rowSum1000 (x : FVec Ideal S1000x1000 .f32) (i : Fin 1000) :
    multiReduction (F := Ideal) .add [1] S1000 x 0x00000000#32 reduces_S1000x1000_S1000 (.inl rfl) rfl (ix1 i)
      = ∑ j : Fin 1000, x (ix2 i j) := by
  refine (Ideal.multiReduction_add_single x _ reduces_S1000x1000_S1000 _ _ (ix1 i)).trans ?_
  refine Finset.sum_congr rfl fun d _ => congrArg x ?_
  funext c
  match c with
  | ⟨0, _⟩ => exact Fin.ext (by simp [Shape.Reduces.lift_val, Shape.Reduces.liftVal])
  | ⟨1, _⟩ => exact Fin.ext (by simp [Shape.Reduces.lift_val, Shape.Reduces.liftVal])

/-- The sum along the first axis of a 1000×1 column: the sum of its 1000 entries. -/
theorem colSum (x : FVec Ideal S1000x1 .f32) (k : S1.Idx) :
    multiReduction (F := Ideal) .add [0] S1 x 0x00000000#32 reduces_S1000x1_S1 (.inl rfl) rfl k
      = ∑ i : Fin 1000, x (ix2 i 0) := by
  refine (Ideal.multiReduction_add_single x _ reduces_S1000x1_S1 _ _ k).trans ?_
  refine Finset.sum_congr rfl fun d _ => congrArg x ?_
  funext c
  match c with
  | ⟨0, _⟩ => exact Fin.ext (by simp [Shape.Reduces.lift_val, Shape.Reduces.liftVal])
  | ⟨1, _⟩ => exact Fin.ext (by
      have h1 : (k 0).val < 1 := (k 0).isLt
      simp [Shape.Reduces.lift_val, Shape.Reduces.liftVal]; omega)

/-! ## The layout operations, read at an index -/

/-- A vector of 1000 entries recast as a 1000×1 column: entry `(i, 0)` is entry `i`. -/
theorem castCol (v : S1000.Idx → EReal) (i : Fin 1000) (z : Fin 1) :
    shapeCast S1000x1 v shapeCasts_S1000_S1000x1 (ix2 i z) = v (ix1 i) := by
  refine shapeCast_apply v shapeCasts_S1000_S1000x1 (ix2 i z) (ix1 i) ?_
  rw [Shape.rowMajor_val_one, Shape.rowMajor_val_two]
  show i.val = i.val * 1 + z.val
  have hz : z.val < 1 := z.isLt
  omega

/-- A vector of one entry recast as a 1×1 array. -/
theorem castOne (v : S1.Idx → EReal) (j : S1x1.Idx) :
    shapeCast S1x1 v shapeCasts_S1_S1x1 j = v (ix1 0) := by
  refine shapeCast_apply v shapeCasts_S1_S1x1 j (ix1 0) ?_
  rw [Shape.rowMajor_val_one, Shape.rowMajor_val_two]
  show 0 = (j 0).val * 1 + (j 1).val
  have h0 : (j 0).val < 1 := (j 0).isLt
  have h1 : (j 1).val < 1 := (j 1).isLt
  omega

/-- A 1000×1 column repeated along 512 features: entry `(i, d)` is the column's entry `(i, 0)`. -/
theorem bcastCol (v : S1000x1.Idx → EReal) (i : Fin 1000) (d : Fin 512) :
    broadcastTo S1000x512 v broadcasts_S1000x1_S1000x512 (ix2 i d) = v (ix2 i 0) := by
  refine broadcastTo_apply v broadcasts_S1000x1_S1000x512 (ix2 i d) (ix2 i 0) fun a => ?_
  match a with
  | ⟨0, _⟩ => rfl
  | ⟨1, _⟩ => rfl

/-- The transpose of a 1000×512 array: entry `(d, j)` is the array's entry `(j, d)`. -/
theorem transp (v : S1000x512.Idx → EReal) (d : Fin 512) (j : Fin 1000) :
    transpose S512x1000 [1, 0] v transposes_S1000x512_p1_0_S512x1000 (ix2 d j) = v (ix2 j d) := by
  refine transpose_apply [1, 0] v transposes_S1000x512_p1_0_S512x1000 (ix2 d j) (ix2 j d) fun b => ?_
  match b with
  | ⟨0, _⟩ => rfl
  | ⟨1, _⟩ => rfl

/-! ## The product of the directions with their transpose -/

theorem lhsAxis0 (i : S1000x1000.Idx) (q : Cert.KernelIdeal.dot_S1000x512_S512x1000_S1000x1000_1_0_0_1_n_n.contr.Idx) :
    (Cert.KernelIdeal.dot_S1000x512_S512x1000_S1000x1000_1_0_0_1_n_n.lhsIdx i q 0).val = (i 0).val := by
  unfold DotDims.lhsIdx
  rw [dif_neg (show ¬(0 : Fin S1000x512.rank) ∈ Cert.KernelIdeal.dot_S1000x512_S512x1000_S1000x1000_1_0_0_1_n_n.lhsBatch by decide),
    dif_pos (show (0 : Fin S1000x512.rank) ∈ Cert.KernelIdeal.dot_S1000x512_S512x1000_S1000x1000_1_0_0_1_n_n.lhsNonContracting by decide)]
  rfl

theorem lhsAxis1 (i : S1000x1000.Idx) (q : Cert.KernelIdeal.dot_S1000x512_S512x1000_S1000x1000_1_0_0_1_n_n.contr.Idx) :
    (Cert.KernelIdeal.dot_S1000x512_S512x1000_S1000x1000_1_0_0_1_n_n.lhsIdx i q 1).val = (q ⟨0, by decide⟩).val :=
  Cert.KernelIdeal.dot_S1000x512_S512x1000_S1000x1000_1_0_0_1_n_n.lhsIdx_val_of_single rfl i q

theorem rhsAxis0 (i : S1000x1000.Idx) (q : Cert.KernelIdeal.dot_S1000x512_S512x1000_S1000x1000_1_0_0_1_n_n.contr.Idx) :
    (Cert.KernelIdeal.dot_S1000x512_S512x1000_S1000x1000_1_0_0_1_n_n.rhsIdx i q 0).val = (q ⟨0, by decide⟩).val :=
  Cert.KernelIdeal.dot_S1000x512_S512x1000_S1000x1000_1_0_0_1_n_n.rhsIdx_val_of_single rfl i q

theorem rhsAxis1 (i : S1000x1000.Idx) (q : Cert.KernelIdeal.dot_S1000x512_S512x1000_S1000x1000_1_0_0_1_n_n.contr.Idx) :
    (Cert.KernelIdeal.dot_S1000x512_S512x1000_S1000x1000_1_0_0_1_n_n.rhsIdx i q 1).val = (i 1).val := by
  unfold DotDims.rhsIdx
  rw [dif_neg (show ¬(1 : Fin S512x1000.rank) ∈ Cert.KernelIdeal.dot_S1000x512_S512x1000_S1000x1000_1_0_0_1_n_n.rhsBatch by decide),
    dif_pos (show (1 : Fin S512x1000.rank) ∈ Cert.KernelIdeal.dot_S1000x512_S512x1000_S1000x1000_1_0_0_1_n_n.rhsNonContracting by decide)]
  rfl

/-- The matrix product onto a zero accumulator, entry `(i, j)`: the sum over the 512 features of the left operand's
    `(i, d)` times the right operand's `(d, j)`. -/
theorem gram_apply (a : FVec Ideal S1000x512 .bf16) (b : FVec Ideal S512x1000 .bf16) (i j : Fin 1000) :
    matmul (F := Ideal) Cert.KernelIdeal.dot_S1000x512_S512x1000_S1000x1000_1_0_0_1_n_n none a b
        (constant S1000x1000 .f32 0x00000000#32) (ix2 i j)
      = ∑ d : Fin 512, a (ix2 i d) * b (ix2 d j) := by
  refine (Ideal.matmul_constant_zero_apply Cert.KernelIdeal.dot_S1000x512_S512x1000_S1000x1000_1_0_0_1_n_n none a b (ix2 i j)).trans ?_
  rw [← Equiv.sum_comp (contrEquiv1 Cert.KernelIdeal.dot_S1000x512_S512x1000_S1000x1000_1_0_0_1_n_n 512 rfl rfl).symm]
  refine Finset.sum_congr rfl fun k _ => ?_
  have hk := contrEquiv1_symm_val Cert.KernelIdeal.dot_S1000x512_S512x1000_S1000x1000_1_0_0_1_n_n 512 rfl rfl k
  have el : Cert.KernelIdeal.dot_S1000x512_S512x1000_S1000x1000_1_0_0_1_n_n.lhsIdx (ix2 i j)
      ((contrEquiv1 Cert.KernelIdeal.dot_S1000x512_S512x1000_S1000x1000_1_0_0_1_n_n 512 rfl rfl).symm k) = ix2 i k :=
    funext fun c => Fin.ext (by
      match c with
      | ⟨0, _⟩ => exact lhsAxis0 _ _
      | ⟨1, _⟩ => exact (lhsAxis1 _ _).trans hk)
  have er : Cert.KernelIdeal.dot_S1000x512_S512x1000_S1000x1000_1_0_0_1_n_n.rhsIdx (ix2 i j)
      ((contrEquiv1 Cert.KernelIdeal.dot_S1000x512_S512x1000_S1000x1000_1_0_0_1_n_n 512 rfl rfl).symm k) = ix2 k j :=
    funext fun c => Fin.ext (by
      match c with
      | ⟨0, _⟩ => exact (rhsAxis0 _ _).trans hk
      | ⟨1, _⟩ => exact rhsAxis1 _ _)
  rw [el, er]

/-! ## The mask of distinct classes -/

/-- The row number of entry `(i, j)`, as a word. -/
theorem iotaRow (i j : Fin 1000) :
    iota .tc S1000x1000 32 [0] iota_S1000x1000_d0_w32 (ix2 i j) = BitVec.ofNat 32 i.val := by
  show BitVec.ofNat 32 (0 * 1000 + i.val) = _
  rw [Nat.zero_mul, Nat.zero_add]

/-- The column number of entry `(i, j)`, as a word. -/
theorem iotaCol (i j : Fin 1000) :
    iota .tc S1000x1000 32 [1] iota_S1000x1000_d1_w32 (ix2 i j) = BitVec.ofNat 32 j.val := by
  show BitVec.ofNat 32 (0 * 1000 + j.val) = _
  rw [Nat.zero_mul, Nat.zero_add]

/-- Two numbers below 1000 have different words exactly when they differ. -/
theorem neWord (i j : Fin 1000) :
    IntOp.cmpi .ne (BitVec.ofNat 32 i.val) (BitVec.ofNat 32 j.val) = if i ≠ j then 1#1 else 0#1 := by
  by_cases h : i = j
  · subst h
    simp [IntOp.cmpi]
  · have hw : BitVec.ofNat 32 i.val ≠ BitVec.ofNat 32 j.val := fun e => h (Fin.ext (by
      have e' := congrArg BitVec.toNat e
      simp only [BitVec.toNat_ofNat] at e'
      have hi := i.isLt
      have hj := j.isLt
      omega))
    rw [if_pos h]
    show BitVec.ofBool (BitVec.ofNat 32 i.val != BitVec.ofNat 32 j.val) = 1#1
    rw [bne_iff_ne.2 hw]
    rfl

/-- The choice at entry `(i, j)` between two arrays under the mask of distinct row and column numbers. -/
theorem masked_apply (a b : S1000x1000.Idx → EReal) (i j : Fin 1000) :
    select (cmpi .ne (iota .tc S1000x1000 32 [0] iota_S1000x1000_d0_w32) (iota .tc S1000x1000 32 [1] iota_S1000x1000_d1_w32)) a b (ix2 i j)
      = if i ≠ j then a (ix2 i j) else b (ix2 i j) := by
  show Scalar.select (IntOp.cmpi .ne (iota .tc S1000x1000 32 [0] iota_S1000x1000_d0_w32 (ix2 i j))
    (iota .tc S1000x1000 32 [1] iota_S1000x1000_d1_w32 (ix2 i j))) (a (ix2 i j)) (b (ix2 i j)) = _
  rw [iotaRow, iotaCol, neWord]
  by_cases h : i = j
  · rw [if_neg (not_not.2 h), if_neg (not_not.2 h)]; exact select_zero _ _
  · rw [if_pos h, if_pos h]; exact select_one _ _

/-! ## The payload, stage by stage -/

/-- The kept length of centre `i` as the kernel forms it: the square root of the row's sum of squares, kept at least ε. -/
theorem len_apply (cen : FVec Ideal S1000x512 .f32) (i : Fin 1000) (z : Fin 1) :
    maximumf (F := Ideal)
        (sqrt (shapeCast S1000x1
          (multiReduction .add [1] S1000 (mulf cen cen) 0x00000000#32 reduces_S1000x512_S1000 (.inl rfl) rfl)
          shapeCasts_S1000_S1000x1))
        (broadcast S1000x1 (Scalar.ofBits .f32 0x322BCC77#32)) (ix2 i z)
      = Cert.Loss.clen cen i := by
  show max (Ideal.sqrt (shapeCast S1000x1
          (multiReduction (F := Ideal) .add [1] S1000 (mulf cen cen) 0x00000000#32 reduces_S1000x512_S1000 (.inl rfl) rfl)
          shapeCasts_S1000_S1000x1 (ix2 i z))) (Ideal.ofBits .f32 0x322BCC77#32) = _
  rw [castCol, rowSum512]
  rfl

/-- A direction entry as the kernel forms it: the centre's entry over the centre's kept length (the narrowing to sixteen
    bits is the identity on the extended reals). -/
theorem dir_apply (cen : FVec Ideal S1000x512 .f32) (len : FVec Ideal S1000x1 .f32)
    (hlen : ∀ (i : Fin 1000) (z : Fin 1), len (ix2 i z) = Cert.Loss.clen cen i) (i : Fin 1000) (d : Fin 512) :
    truncf (F := Ideal) .bf16 (divf cen (broadcastTo S1000x512 len broadcasts_S1000x1_S1000x512)) bitsLt_bf16_f32 (ix2 i d)
      = Cert.Loss.dir cen i d := by
  show Ideal.div (cen (ix2 i d)) (broadcastTo S1000x512 len broadcasts_S1000x1_S1000x512 (ix2 i d)) = _
  rw [bcastCol, hlen]
  rfl

/-- A product entry: the cosine of two centres. -/
theorem cos_apply (cen : FVec Ideal S1000x512 .f32) (u : FVec Ideal S1000x512 .bf16)
    (hu : ∀ (i : Fin 1000) (d : Fin 512), u (ix2 i d) = Cert.Loss.dir cen i d) (i j : Fin 1000) :
    matmul (F := Ideal) Cert.KernelIdeal.dot_S1000x512_S512x1000_S1000x1000_1_0_0_1_n_n none u
        (transpose S512x1000 [1, 0] u transposes_S1000x512_p1_0_S512x1000)
        (constant S1000x1000 .f32 0x00000000#32) (ix2 i j)
      = Cert.Loss.cosine cen i j := by
  rw [gram_apply]
  unfold Cert.Loss.cosine
  refine Finset.sum_congr rfl fun d _ => ?_
  rw [transp, hu, hu]

/-- A masked entry: one plus the cosine off the diagonal, zero on it. -/
theorem entry_apply (cen : FVec Ideal S1000x512 .f32) (g : FVec Ideal S1000x1000 .f32)
    (hg : ∀ i j : Fin 1000, g (ix2 i j) = Cert.Loss.cosine cen i j) (i j : Fin 1000) :
    select (cmpi .ne (iota .tc S1000x1000 32 [0] iota_S1000x1000_d0_w32) (iota .tc S1000x1000 32 [1] iota_S1000x1000_d1_w32))
        (addf g (broadcast S1000x1000 (Scalar.ofBits (F := Ideal) .f32 0x3F800000#32)))
        (broadcast S1000x1000 (Scalar.ofBits (F := Ideal) .f32 0x00000000#32)) (ix2 i j)
      = if i ≠ j then Cert.Loss.cosine cen i j + Ideal.ofBits .f32 0x3F800000#32 else 0 := by
  rw [masked_apply]
  by_cases h : i = j
  · rw [if_neg (not_not.2 h), if_neg (not_not.2 h)]
    exact Ideal.ofBits_zero_f32
  · rw [if_pos h, if_pos h]
    show g (ix2 i j) + Ideal.ofBits .f32 0x3F800000#32 = _
    rw [hg]

/-- The two sums: over the columns of each row, then over the rows. -/
theorem total_apply (e : FVec Ideal S1000x1000 .f32) (f : Fin 1000 → Fin 1000 → EReal)
    (he : ∀ i j : Fin 1000, e (ix2 i j) = f i j) (k : S1x1.Idx) :
    shapeCast S1x1
        (multiReduction (F := Ideal) .add [0] S1
          (shapeCast S1000x1
            (multiReduction (F := Ideal) .add [1] S1000 e 0x00000000#32 reduces_S1000x1000_S1000 (.inl rfl) rfl)
            shapeCasts_S1000_S1000x1)
          0x00000000#32 reduces_S1000x1_S1 (.inl rfl) rfl)
        shapeCasts_S1_S1x1 k
      = ∑ i : Fin 1000, ∑ j : Fin 1000, f i j := by
  rw [castOne, colSum]
  refine Finset.sum_congr rfl fun i _ => ?_
  rw [castCol, rowSum1000]
  exact Finset.sum_congr rfl fun j _ => he i j

/-! ## The payload -/

/-- The island kernel's stored value is the pair sum of the specification, at its one index. -/
theorem k1_pay1_eq (cen : Vec Ideal S1000x512 .f32) :
    k1_pay1 (F := Ideal) cen = fun _ => Cert.Loss.islandSum cen := by
  funext k
  unfold k1_pay1
  refine (total_apply _ (fun i j => if i ≠ j then Cert.Loss.cosine cen i j + Ideal.ofBits .f32 0x3F800000#32 else 0)
    (fun i j => ?_) k).trans rfl
  refine entry_apply cen _ (fun i j => ?_) i j
  refine cos_apply cen _ (fun i d => ?_) i j
  exact dir_apply cen _ (fun i z => len_apply cen i z) i d

end Cert.KernelIdeal.PayIsland

end
-- ==== Proof.KernelValue.lean ====
/-
  At the ideal instance the kernel's result is the loss `Cert.Loss.G` of its arguments, when every label is a class
  below 1000.

  Tile n of the grid contributes the squared distances of its 1024 samples; the scratch after point n is the running sum
  `acc` of the tiles of its core so far (reset at the core's first tile), so entry (core, 0, lane) of the first pallas_call's
  array is the core's 16 tiles summed, times 2⁻¹⁶. The host adds the two cores' entries from zero. Every tile's sum is ≥ 0,
  so scaling distributes over the two cores' sums, and the 32 tiles together are all 32768 samples: the first term of `G`.
  The second pallas_call's payload of the centres is the pair sum, which the host halves: the second term.
-/
import proofs.«403618_j12678743457990_2_alg».proof.Proof.Gen.KernelIdeal.Launch
import proofs.«403618_j12678743457990_2_alg».proof.Proof.Gen.KernelIdeal.Skeleton
import proofs.«403618_j12678743457990_2_alg».proof.Proof.Gen.KernelIdeal.Points
import proofs.«403618_j12678743457990_2_alg».proof.Proof.ResultTerm
import proofs.«403618_j12678743457990_2_alg».proof.Proof.CenterValue
import proofs.«403618_j12678743457990_2_alg».proof.Proof.TileBlocks
import proofs.«403618_j12678743457990_2_alg».proof.Proof.PayCenter
import proofs.«403618_j12678743457990_2_alg».proof.Proof.PayIsland
import proofs.«403618_j12678743457990_2_alg».proof.Proof.SumLaws
import Idealize.ShloMosaic.PureOps.Ideal.Laws
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

variable (m : (ℓ : Loc nD τ sig) → Buf (Elt Ideal) ℓ)

/-- The three argument arrays on core `c`. -/
abbrev labA (c : Dev nD) : Cert.Loss.SLab.Idx → BitVec 32 := m ((c : Thread nD τ).loc main_arg0)
abbrev featA (c : Dev nD) : Cert.Loss.SFeat.Idx → EReal := m ((c : Thread nD τ).loc main_arg1)
abbrev cenA (c : Dev nD) : Cert.Loss.SCen.Idx → EReal := m ((c : Thread nD τ).loc main_arg2)

/-- Tile `n`'s summed squared distances (zero past the last tile). -/
def tileSeq (c : Dev nD) (n : ℕ) : EReal :=
  if h : n < 32 then Cert.Loss.tile (labA m c) (featA m c) (cenA m c) ⟨n, h⟩ else 0

theorem tileSeq_nonneg (c : Dev nD) (n : ℕ) : 0 ≤ tileSeq m c n := by
  unfold tileSeq; split
  · exact Cert.Loss.tile_nonneg _ _ _ _
  · exact le_refl _

theorem tileSeq_lt (c : Dev nD) (n : ℕ) (h : n < 32) :
    tileSeq m c n = Cert.Loss.tile (labA m c) (featA m c) (cenA m c) ⟨n, h⟩ := dif_pos h

/-- The scratch after point `n` is the running sum of the tiles of its core so far. -/
theorem scr_eq (c : Dev nD) (hlab : ∀ b, (labA m c b).toNat < 1000) :
    ∀ (n : ℕ) (h : n < cfg0.N), scr (V1 m) c n h = fun _ => Cert.Loss.acc (tileSeq m c) n
  | 0, h => by
    show k0_pay2 (iblk0 (V1 m) c 0 ⟨0, h⟩) (iblk0 (V1 m) c 2 ⟨0, h⟩) (iblk0 (V1 m) c 1 ⟨0, h⟩) (k0_pay1 (F := Ideal)) = _
    rw [Cert.KernelIdeal.PayValue.pay2_eq _ _ _ _ (lab_block_lt m c ⟨0, h⟩ hlab), Cert.KernelIdeal.PayValue.pay1_eq, tileSq_blocks]
    funext _
    show (0 : EReal) + _ = 0 + tileSeq m c 0
    rw [tileSeq_lt m c 0 (by decide)]
  | n + 1, h => by
    have hN : n + 1 < 32 := lt_of_lt_of_eq h N_0
    show k0_pay2 (iblk0 (V1 m) c 0 ⟨n + 1, h⟩) (iblk0 (V1 m) c 2 ⟨n + 1, h⟩) (iblk0 (V1 m) c 1 ⟨n + 1, h⟩)
      (if (n + 1) % 16 = 0 then k0_pay1 (F := Ideal) else scr (V1 m) c n (Nat.lt_of_succ_lt h)) = _
    rw [Cert.KernelIdeal.PayValue.pay2_eq _ _ _ _ (lab_block_lt m c ⟨n + 1, h⟩ hlab), tileSq_blocks]
    funext _
    show _ = (if (n + 1) % 16 = 0 then 0 else Cert.Loss.acc (tileSeq m c) n) + tileSeq m c (n + 1)
    rw [tileSeq_lt m c (n + 1) hN]
    by_cases hp : (n + 1) % 16 = 0
    · rw [if_pos hp, if_pos hp, Cert.KernelIdeal.PayValue.pay1_eq]
    · rw [if_neg hp, if_neg hp, scr_eq c hlab n]

/-- A sum over the two entries of a 2-vector. -/
theorem sum_two (f : S2.Idx → EReal) : ∑ i : S2.Idx, f i = f (ix1 (0 : Fin 2)) + f (ix1 (1 : Fin 2)) := by
  rw [← Fin.sum_univ_two (fun j : Fin 2 => f (ix1 j))]
  exact Fintype.sum_equiv ⟨fun i => (i 0 : Fin 2), fun j => ix1 j, fun i => (eq_ix1 i).symm, fun _ => rfl⟩ _ _
    (fun i => congrArg f (eq_ix1 i))

/-- Lane 0 of core `j`, read through the host's slice and reshape, is entry (j, 0, 0) of the array. -/
theorem lane0_entry (o : FVec Ideal S2x1x128 .f32) (j : Fin 2) :
    (shapeCast S2 (extractStridedSlice S2x1x1 ![0, 0, 0] o slices_S2x1x128_S2x1x1_0_0_0) shapeCasts_S2x1x1_S2 : FVec Ideal S2 .f32) (ix1 j)
      = o (ix3 j (0 : Fin 1) (0 : Fin 128)) := by
  rw [shapeCast_apply _ _ (ix1 j) (ix3 j (0 : Fin 1) (0 : Fin 1)) (by
    rw [Shape.rowMajor_val_three, Shape.rowMajor_val_one]; simp)]
  unfold extractStridedSlice
  congr 1
  funext a
  match a with
  | ⟨0, _⟩ => exact Fin.ext (by simp)
  | ⟨1, _⟩ => exact Fin.ext (by simp)
  | ⟨2, _⟩ => exact Fin.ext (by simp)

/-- Entry (core, 0, 0) of the first pallas_call's array: the core's 16 tiles summed, scaled by 2⁻¹⁶. -/
theorem core_entry (c : Dev nD) (hlab : ∀ b, (labA m c b).toNat < 1000) (j : Fin 2) :
    outArr (V1 m) c (ix3 j (0 : Fin 1) (0 : Fin 128))
      = Cert.Loss.acc (tileSeq m c) (16 * j.val + 15) * Ideal.ofBits .f32 0x37800000#32 := by
  show k0_pay3 (scr (V1 m) c (16 * j.val + 15) _) _ = _
  rw [Cert.KernelIdeal.PayValue.pay3_eq, scr_eq m c hlab]

/-- THE KERNEL'S VALUE at the ideal instance. -/
theorem kernel_value (c : Dev nD) (hlab : ∀ b, (labA m c b).toNat < 1000) :
    (W5 m c (Proc.devRef .tc main_v9) : FVec Ideal S_ .f32) = fun _ => Cert.Loss.G (labA m c) (featA m c) (cenA m c) := by
  rw [W5_v9, W4_v5, W3_v5, W2_v2, final0, W4_v6, Cert.KernelIdeal.PayIsland.k1_pay1_eq]
  funext i
  simp only [addf, mulf, Host.reduceAdd, Ideal.hostReduceAdd_def, Ideal.addf_def, Ideal.mulf_def]
  rw [Ideal.hostReduceAdd_total reducesTo_S2_S_d0 (fun b => b.elim0) _ _ _, sum_two, lane0_entry, lane0_entry, core_entry m c hlab 0, core_entry m c hlab 1]
  have hzero : (constant S_ .f32 0x00000000#32 : FVec Ideal S_ .f32) (Shape.Idx.first h_S_) = 0 := Ideal.ofBits_zero_f32
  have hhalf : (constant S_ .f32 0x3F000000#32 : FVec Ideal S_ .f32) i = Ideal.ofBits .f32 0x3F000000#32 := rfl
  have hpair : (shapeCast S_ (fun _ => Cert.Loss.islandSum (m ((c : Thread nD τ).loc main_arg2))) shapeCasts_S1x1_S_ : FVec Ideal S_ .f32) i
      = Cert.Loss.islandSum (cenA m c) := rfl
  have e0 : 16 * ((0 : Fin 2) : ℕ) + 15 = 15 := rfl
  have e1 : 16 * ((1 : Fin 2) : ℕ) + 15 = 31 := rfl
  have htiles : (∑ t : Fin 32, tileSeq m c t.val) = ∑ t : Fin 32, Cert.Loss.tile (labA m c) (featA m c) (cenA m c) t :=
    Finset.sum_congr rfl (fun t _ => tileSeq_lt m c t.val t.isLt)
  have hcs : Cert.Loss.acc (tileSeq m c) 15 * Ideal.ofBits .f32 0x37800000#32
      + Cert.Loss.acc (tileSeq m c) 31 * Ideal.ofBits .f32 0x37800000#32
      = Cert.Loss.centerSum (labA m c) (featA m c) (cenA m c) * Ideal.ofBits .f32 0x37800000#32 := by
    rw [Cert.Loss.scaled_halves _ (tileSeq_nonneg m c) _ Cert.Loss.ofBits_k_nonneg, Cert.Loss.sum_range_eq_fin, htiles,
      ← Cert.Loss.centerSum_eq_tiles]
  rw [hzero, hhalf, hpair, zero_add, e0, e1, hcs]
  rfl

end Cert.KernelIdeal.Hand

end
-- ==== Proof.RefValue.lean ====
/-
  The reference's result is the loss `Cert.Loss.G` of its arguments, when every label is a class below 1000.

  The one stage read by hand is the gather of the class centres at the labels: result element (b, d) is the table at
  the row the start word of sample b names, read signed and clamped into the 1000 rows, at feature d. A label below
  1000 is non-negative, so the wrap of negative labels before the gather and the clamp inside it both leave it as it
  is, and the row read is the centre of the label's class. The first term is then the whole-array sum of squared
  differences, re-indexed as the nested sum over samples and features, divided by 2 and by 32768, which is the product
  with 2⁻¹⁶ on every extended real. The second term reads the row lengths, the scaled centres, their contraction (the
  cosines), the off-diagonal mask built from the two iotas, and the whole-array sum of the masked entries.
-/
import proofs.«403618_j12678743457990_2_alg».proof.Proof.Gen.ReferenceIdeal.Run
import proofs.«403618_j12678743457990_2_alg».proof.Proof.Gen.ReferenceIdeal.Read
import proofs.«403618_j12678743457990_2_alg».proof.Proof.Spec
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read Cert.Loss

/-! ## The constant words -/

/-- The word 0x40000000 is 2. -/
theorem two_word : Ideal.ofBits .f32 0x40000000#32 = ((2 : ℝ) : EReal) := by
  simp [Ideal.ofBits, Ideal.ieee, -EReal.coe_mul]; norm_num
/-- The word 0x47000000 is 32768. -/
theorem n_word : Ideal.ofBits .f32 0x47000000#32 = ((32768 : ℝ) : EReal) := by
  simp [Ideal.ofBits, Ideal.ieee, -EReal.coe_mul]; norm_num
/-- The word 0x37800000 is 1/65536. -/
theorem scale_word : Ideal.ofBits .f32 0x37800000#32 = ((1 / 65536 : ℝ) : EReal) := by
  simp [Ideal.ofBits, Ideal.ieee, -EReal.coe_mul]; norm_num
/-- The word 0x00000000 is 0. -/
theorem zero_word : Ideal.ofBits .f32 0x00000000#32 = 0 := by
  simp [Ideal.ofBits, Ideal.ieee]

/-! ## The gather of the centres at the labels -/

/-- A start word read signed and clamped into the 1000 rows of the table. -/
def clampRow (w : BitVec 32) : Fin 1000 := ⟨min w.toInt.toNat 999, by omega⟩

/-- The gather read at row b, feature d: the table's row at the start word of sample b, read signed and
    clamped into the table, at feature d. -/
theorem gather_row {α : Type} (x : S1000x512.Idx → α) (idx : IVec S32768x1 32) (b : Fin 32768) (d : Fin 512) :
    Host.gather gather_S1000x512_S32768x1_S32768x512_1_0_n_n_0_1_1512 x idx (ix2 b d)
      = x (ix2 (clampRow (idx (ix2 b (0 : Fin 1)))) d) := by
  unfold Host.gather
  congr 1
  funext a
  refine Fin.ext ?_
  match a with
  | ⟨0, _⟩ =>
    show gather_S1000x512_S32768x1_S32768x512_1_0_n_n_0_1_1512.start (ix2 b d) idx 0
        + gather_S1000x512_S32768x1_S32768x512_1_0_n_n_0_1_1512.batchCoord (ix2 b d) 0
        + gather_S1000x512_S32768x1_S32768x512_1_0_n_n_0_1_1512.offCoord (ix2 b d) 0 = _
    rw [GatherDims.batchCoord_eq_zero _ _ _ (by decide), GatherDims.offCoord_eq_zero _ _ _ (by decide)]
    simp only [Nat.add_zero]
    unfold GatherDims.start
    rw [dif_pos (show (0 : Fin S1000x512.rank) ∈ gather_S1000x512_S32768x1_S32768x512_1_0_n_n_0_1_1512.startIndexMap by decide)]
    have hsi : gather_S1000x512_S32768x1_S32768x512_1_0_n_n_0_1_1512.siIdx (ix2 b d)
        ⟨List.idxOf (0 : Fin S1000x512.rank) gather_S1000x512_S32768x1_S32768x512_1_0_n_n_0_1_1512.startIndexMap,
          List.idxOf_lt_length_iff.2 (by decide)⟩ = ix2 b (0 : Fin 1) := by
      funext c; refine Fin.ext ?_
      match c with
      | ⟨0, _⟩ => rfl
      | ⟨1, _⟩ => rfl
    rw [hsi]
    rfl
  | ⟨1, _⟩ =>
    show gather_S1000x512_S32768x1_S32768x512_1_0_n_n_0_1_1512.start (ix2 b d) idx 1
        + gather_S1000x512_S32768x1_S32768x512_1_0_n_n_0_1_1512.batchCoord (ix2 b d) 1
        + gather_S1000x512_S32768x1_S32768x512_1_0_n_n_0_1_1512.offCoord (ix2 b d) 1 = d.val
    rw [GatherDims.batchCoord_eq_zero _ _ _ (by decide)]
    unfold GatherDims.start GatherDims.offCoord
    rw [dif_neg (by decide), dif_pos (by decide), Nat.zero_add]
    rfl

/-- A word below 1000 clamps to its own class. -/
theorem clampRow_of_lt (w : BitVec 32) (h : w.toNat < 1000) : clampRow w = cls w := by
  refine Fin.ext ?_
  show min w.toInt.toNat 999 = w.toNat % 1000
  rw [StableHlo.Predicate.toInt_eq_toNat_of_lt (by omega), Int.toNat_natCast, Nat.mod_eq_of_lt h]
  omega

/-- The start word of sample b: its label (the wrap of a negative label does nothing to a label below 1000). -/
theorem v5_row (lab : (⟨S32768, .i32⟩ : BufTy).Contents (Elt Ideal)) (hlab : ∀ b, (lab b).toNat < 1000) (b : Fin 32768) :
    val_main_v5 (F := Ideal) lab (ix2 b (0 : Fin 1)) = lab (ix1 b) := by
  have hi : idx_main_v5 (ix2 b (0 : Fin 1)) = ix1 b := funext fun a => match a with | ⟨0, _⟩ => rfl
  rw [val_main_v5_apply, hi, val_main_v4_apply, val_main_v1_apply, val_main_v0_apply, val_main_c_apply]
  have hc : IntOp.cmpi .slt (lab (ix1 b)) 0#32 = 0#1 := eq_zero_of_ne_one fun h => by
    have := (StableHlo.Predicate.slt_iff_toNat (by have := hlab (ix1 b); omega) (by decide)).mp h
    simp at this
  rw [hc, select_zero]

/-- The gathered centre of sample b at feature d: the centre of the label's class. -/
theorem v6_row (lab : (⟨S32768, .i32⟩ : BufTy).Contents (Elt Ideal)) (cen : (⟨S1000x512, .f32⟩ : BufTy).Contents (Elt Ideal))
    (hlab : ∀ b, (lab b).toNat < 1000) (b : Fin 32768) (d : Fin 512) :
    val_main_v6 (F := Ideal) lab cen (ix2 b d) = cen (ix2 (cls (lab (ix1 b))) d) := by
  unfold val_main_v6
  rw [gather_row, v5_row lab hlab, clampRow_of_lt _ (hlab _)]

/-! ## The first term: the summed squared distances, scaled -/

/-- The squared differences summed over the whole array are the summed squared distances. -/
theorem v8_sum (lab : (⟨S32768, .i32⟩ : BufTy).Contents (Elt Ideal)) (x : (⟨S32768x512, .f32⟩ : BufTy).Contents (Elt Ideal))
    (cen : (⟨S1000x512, .f32⟩ : BufTy).Contents (Elt Ideal)) (hlab : ∀ b, (lab b).toNat < 1000) :
    ∑ j : S32768x512.Idx, val_main_v8 (F := Ideal) lab x cen j = centerSum lab x cen := by
  rw [sum_idx2]
  unfold centerSum rowSq
  refine Finset.sum_congr rfl fun b _ => Finset.sum_congr rfl fun d _ => ?_
  rw [val_main_v8_apply, val_main_v7_apply, v6_row lab cen hlab]
  rfl

/-- Dividing by 2 and then by 32768 is multiplying by 1/65536, on every extended real. -/
theorem half_mean (s : EReal) :
    Ideal.div (Ideal.div s (Ideal.ofBits .f32 0x40000000#32)) (Ideal.ofBits .f32 0x47000000#32)
      = s * Ideal.ofBits .f32 0x37800000#32 := by
  rw [two_word, n_word, scale_word, Ideal.div_coe (by norm_num), Ideal.div_coe (by norm_num), mul_assoc, ← EReal.coe_mul]
  congr 2
  norm_num

/-- The first term of the reference: 2⁻¹⁶ times the summed squared distances. -/
theorem center_eq (lab : (⟨S32768, .i32⟩ : BufTy).Contents (Elt Ideal)) (x : (⟨S32768x512, .f32⟩ : BufTy).Contents (Elt Ideal))
    (cen : (⟨S1000x512, .f32⟩ : BufTy).Contents (Elt Ideal)) (hlab : ∀ b, (lab b).toNat < 1000) (i : S_.Idx) :
    val_main_v11 (F := Ideal) lab x cen i = centerSum lab x cen * Ideal.ofBits .f32 0x37800000#32 := by
  rw [val_main_v11_apply, val_main_v10_apply, val_main_v9_apply, val_main_cst_apply, val_main_cst_1_apply, val_main_cst_2_apply,
    v8_sum lab x cen hlab]
  simp only [Ideal.hostDivf_def, Ideal.ofBits_def]
  rw [zero_word, zero_add, half_mean]

/-! ## The second term: the pair sum of one plus the cosine -/

/-- The kept length of centre i, as the reference computes it on the column [1000 × 1]. -/
theorem v14_row (cen : (⟨S1000x512, .f32⟩ : BufTy).Contents (Elt Ideal)) (i : Fin 1000) :
    val_main_v14 (F := Ideal) cen (ix2 i (0 : Fin 1)) = clen cen i := by
  have h2 : idx_main_call0_v2 (ix2 i (0 : Fin 1)) = ix1 i := funext fun a => match a with | ⟨0, _⟩ => rfl
  have h1 : ∀ k : Fin 512, idx_main_call0_v1 (ix1 i) k = ix2 i k := fun k =>
    funext fun a => match a with | ⟨0, _⟩ => rfl | ⟨1, _⟩ => rfl
  rw [val_main_v14_apply, val_main_v12_apply, val_main_call0_v2_apply, h2, val_main_call0_v1_apply, val_main_v13_apply,
    val_main_cst_3_apply, val_main_call0_cst_apply]
  simp only [h1, val_main_call0_v0_apply, Ideal.maximumf_def, Ideal.hostUnary_sqrt_def, Ideal.ofBits_def, Ideal.mulf_def]
  rw [zero_word, zero_add]
  rfl

/-- Centre i scaled to its kept length, at feature d. -/
theorem v16_row (cen : (⟨S1000x512, .f32⟩ : BufTy).Contents (Elt Ideal)) (i : Fin 1000) (d : Fin 512) :
    val_main_v16 (F := Ideal) cen (ix2 i d) = dir cen i d := by
  have h : idx_main_v15 (ix2 i d) = ix2 i (0 : Fin 1) := funext fun a => match a with | ⟨0, _⟩ => rfl | ⟨1, _⟩ => rfl
  rw [val_main_v16_apply, val_main_v15_apply, h, v14_row]
  rfl

/-- The contraction of the scaled centres with their transpose: the cosine of centres i and j. -/
theorem v18_at (cen : (⟨S1000x512, .f32⟩ : BufTy).Contents (Elt Ideal)) (i j : Fin 1000) :
    val_main_v18 (F := Ideal) cen (ix2 i j) = cosine cen i j := by
  rw [val_main_v18_apply]
  unfold cosine
  refine Finset.sum_congr rfl fun k _ => ?_
  have hl : lidx_main_v18 (ix2 i j) k = ix2 i k := funext fun a => match a with | ⟨0, _⟩ => rfl | ⟨1, _⟩ => rfl
  have hr : ridx_main_v18 (ix2 i j) k = ix2 k j := funext fun a => match a with | ⟨0, _⟩ => rfl | ⟨1, _⟩ => rfl
  have ht : idx_main_v17 (ix2 k j) = ix2 j k := funext fun a => match a with | ⟨0, _⟩ => rfl | ⟨1, _⟩ => rfl
  rw [hl, hr, val_main_v17_apply, ht, v16_row, v16_row]

/-- Two coordinates below 1000 give the same word only when they are equal. -/
theorem ofNat_inj_of_lt (i j : Fin 1000) (h : BitVec.ofNat 32 i.val = BitVec.ofNat 32 j.val) : i = j := by
  have := congrArg BitVec.toNat h
  simp only [BitVec.toNat_ofNat, Nat.reducePow] at this
  exact Fin.ext (by omega)

/-- The mask at (i, j): set off the diagonal. -/
theorem v24_at (i j : Fin 1000) :
    val_main_v24 (F := Ideal) (ix2 i j) = if i ≠ j then 1#1 else 0#1 := by
  rw [val_main_v24_apply, val_main_v23_apply, val_main_v22_apply, val_main_v19_apply, val_main_v20_apply, val_main_v21_apply,
    val_main_c_4_apply]
  show ~~~(IntOp.cmpi .eq (IntOp.addi (BitVec.ofNat 32 i.val) 0#32) (BitVec.ofNat 32 j.val)) = _
  have h0 : IntOp.addi (BitVec.ofNat 32 i.val) 0#32 = BitVec.ofNat 32 i.val := by
    unfold IntOp.addi; exact BitVec.add_zero _
  rw [h0]
  by_cases h : i = j
  · subst h
    rw [StableHlo.Predicate.cmpi_eq_iff.mpr rfl, if_neg (by simp)]
    decide
  · have hc : IntOp.cmpi .eq (BitVec.ofNat 32 i.val) (BitVec.ofNat 32 j.val) = 0#1 :=
      eq_zero_of_ne_one fun h' => h (ofNat_inj_of_lt i j (StableHlo.Predicate.cmpi_eq_iff.mp h'))
    rw [hc, if_pos h]
    decide

/-- The masked entry at (i, j): one plus the cosine off the diagonal, zero on it. -/
theorem v27_at (cen : (⟨S1000x512, .f32⟩ : BufTy).Contents (Elt Ideal)) (i j : Fin 1000) :
    val_main_v27 (F := Ideal) cen (ix2 i j)
      = if i ≠ j then cosine cen i j + Ideal.ofBits .f32 0x3F800000#32 else 0 := by
  rw [val_main_v27_apply, v24_at]
  by_cases h : i = j
  · rw [if_neg (by simpa using h), if_neg (by simpa using h), select_zero, val_main_call1_v1_apply, val_main_call1_v0_apply,
      val_main_cst_6_apply, Ideal.ofBits_def, zero_word]
  · rw [if_pos h, if_pos h, select_one, val_main_v26_apply, v18_at, val_main_v25_apply, val_main_cst_5_apply]
    rfl

/-- The second term of the reference: one half of the pair sum. -/
theorem island_eq (cen : (⟨S1000x512, .f32⟩ : BufTy).Contents (Elt Ideal)) (i : S_.Idx) :
    val_main_v29 (F := Ideal) cen i = Ideal.ofBits .f32 0x3F000000#32 * islandSum cen := by
  rw [val_main_v29_apply, val_main_v28_apply, val_main_cst_8_apply, val_main_cst_7_apply, sum_idx2]
  simp only [v27_at, Ideal.ofBits_def, Ideal.mulf_def]
  rw [zero_word, zero_add]
  rfl

/-! ## The result -/

/-- The reference's result is the loss of its arguments, when every label is a class below 1000. -/
theorem ref_eq
    (lab : (⟨Cert.ReferenceIdeal.S32768, .i32⟩ : BufTy).Contents (Elt Ideal))
    (x : (⟨Cert.ReferenceIdeal.S32768x512, .f32⟩ : BufTy).Contents (Elt Ideal))
    (cen : (⟨Cert.ReferenceIdeal.S1000x512, .f32⟩ : BufTy).Contents (Elt Ideal))
    (hlab : ∀ b, (lab b).toNat < 1000) :
    Cert.ReferenceIdeal.Read.val_main_v30 (F := Ideal) lab x cen = fun _ => Cert.Loss.G lab x cen := by
  funext i
  rw [val_main_v30_apply, center_eq lab x cen hlab, island_eq]
  rfl

end Cert.ReferenceIdeal.RefValue
end
-- ==== Proof.LibMaskedSelect.lean ====
/-
  General lemmas for a row-wise selection written as a masked sum, none of them about a particular program.

  * `broadcastTo_a1_ab_apply`: a column [a, 1] broadcast to [a, b] reads, at (p, c), the column's entry p — the
    keepdims form a per-row weight is spread over a row in.
  * `Host.reduce_andi_of_all`: a reduce by `and` from an initial 1 over an array of 1s is 1 (the converse of
    Lib/ReduceAll.lean's `Host.reduce_andi_eq_one`): how an in-range test that is true everywhere reads after `jnp.all`
    along an axis.
  * `toNat_lt_of_sge_slt`: a 32-bit word that compares signed ≥ 0 and signed < n (n below 2³¹) has unsigned value below n:
    what the two comparisons of an index-range precondition say of the word.
  * `eq_ofNat_of_toNat_lt`: such a word is the word of an index below n.
-/
import Idealize.ShloMosaic.Lib.ReduceAll
import Idealize.ShloMosaic.Lib.ValueIdx
import Idealize.ShloMosaic.Lib.Pipeline.Value
import Idealize.ShloMosaic.Lib.StableHlo.Predicate

namespace Idealize.ShloMosaic.MaskedSelect

open Idealize.ShloMosaic Idealize.ShloMosaic.ValueIdx

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_of_all f l _ ?_ (fun n hn => hl n (List.mem_cons_of_mem _ hn))
    show IntOp.andi init (f a) = 1#1
    rw [hi, hl a (List.mem_cons_self ..)]
    decide

/-- A `stablehlo.reduce` by `and` whose initial value is 1 and whose operand is 1 everywhere is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_of_all x _ _ hinit (fun i _ => hx i)

/-- A word that is signed ≥ 0 and signed < n, for n below 2³¹, is below n read unsigned. -/
theorem toNat_lt_of_sge_slt (v : BitVec 32) (n : ℕ) (hn : n < 2 ^ 31) (h0 : IntOp.cmpi .sge v 0#32 = 1#1)
    (h1 : IntOp.cmpi .slt v (BitVec.ofNat 32 n) = 1#1) : v.toNat < n := by
  simp only [IntOp.cmpi, StableHlo.Predicate.ofBool_eq_one_iff, BitVec.sle, BitVec.slt, decide_eq_true_eq] at h0 h1
  rw [StableHlo.Predicate.toInt_ofNat_small n hn] at h1
  have hz : (0#32 : BitVec 32).toInt = 0 := by decide
  rw [hz] at h0
  rw [BitVec.toInt_eq_toNat_cond] at h0 h1
  split at h0 <;> omega

/-- A word whose unsigned value is below n is the word of some index below n. -/
theorem eq_ofNat_of_toNat_lt (v : BitVec 32) (n : ℕ) (h : v.toNat < n) : ∃ e : Fin n, v = BitVec.ofNat 32 e.val :=
  ⟨⟨v.toNat, h⟩, BitVec.eq_of_toNat_eq (by rw [BitVec.toNat_ofNat]; exact (Nat.mod_eq_of_lt v.isLt).symm)⟩

end Idealize.ShloMosaic.MaskedSelect
-- ==== Proof.PreDecode.lean ====
/-
  The label-range conjunct of the printed precondition, read back.

  The precondition's last seven operations say: every label word compares signed ≥ 0 and signed < 1000, the two
  comparisons are joined by `and` elementwise, the joined array is reduced by `and` over its one axis from the
  constant 1, and that result is joined by `and` with the finiteness part. When the whole predicate is 1, the second
  operand of the outer `and` is 1; a reduction by `and` from 1 that comes out 1 met a 1 at every position; at position
  `b` both comparisons are therefore 1; the two scalar constants broadcast along the axis read 0 and 1000 at every
  position; and a 32-bit word that is signed ≥ 0 and signed < 1000 has unsigned value below 1000.
-/
import proofs.«403618_j12678743457990_2_alg».proof.Pre_finite_inputs
import proofs.«403618_j12678743457990_2_alg».proof.Proof.LibMaskedSelect
import Idealize.ShloMosaic.Lib.ReduceAll
import Idealize.ShloMosaic.Lib.StableHlo.Predicate
import Idealize.ShloMosaic.Lib.IdealHost

namespace Cert.Pre_finite_inputs.Decode

open Idealize.ShloMosaic

/-- The rank-0 shape has one index: its coordinate family is over the empty type. -/
instance : Subsingleton S_.Idx := ⟨fun _ _ => funext fun d => d.elim0⟩

/-- When the printed precondition holds, every label word is below 1000 read unsigned. -/
theorem label_lt {F : FTy → Type} [FloatOps F] [Cert.Pre_finite_inputs.Facts]
    (lab : IVec Cert.Pre_finite_inputs.S32768 32) (x : FVec F Cert.Pre_finite_inputs.S32768x512 .f32)
    (cen : FVec F Cert.Pre_finite_inputs.S1000x512 .f32)
    (h : Cert.Pre_finite_inputs.fn (F := F) lab x cen = fun _ => 1#1) : ∀ b, (lab b).toNat < 1000 := by
  intro b
  -- the predicate at its one index
  have h0 := congrFun h ValueIdx.ix0
  dsimp only [fn] at h0
  -- the outer conjunction: its second operand, the reduced range test, is 1
  obtain ⟨_, h14⟩ := IntOp.andi_eq_one.1 h0
  -- a reduction by conjunction from 1 that is 1 met a 1 at every position, so at b
  have h13 := Host.reduce_andi_all _ _ _ _ _ h14 b
  -- the elementwise conjunction at b: both comparisons are 1; the broadcast scalars read 0 and 1000 there
  obtain ⟨hge, hlt⟩ := IntOp.andi_eq_one.1 h13
  exact MaskedSelect.toNat_lt_of_sge_slt (lab b) 1000 (by norm_num) hge hlt

end Cert.Pre_finite_inputs.Decode
-- ==== Proof.lean ====
/-
  The certificate: the Pallas kernel (two pallas_calls and the host operations around them) and the jnp reference compute
  the same loss on the extended reals — 2⁻¹⁶ times the summed squared distances of the 32768 samples to the centres of
  their classes, plus one half of the sum over ordered pairs of distinct classes of one plus the cosine of their centres
  (`Cert.Loss.G`) — when every float input is finite and every label is a class in [0, 1000).

  The kernel walks the samples in 32 tiles of 1024 on a 2 × 16 grid, each core keeping a running sum in a 1×1 scratch that it
  resets at its first tile and writes out, scaled, at its last; it gathers a sample's centre as a one-hot row times the
  table of centres, which is the centre of the sample's class exactly when the label is a class; the host adds the two
  cores' scaled sums. The reference gathers by index and scales the whole sum once. The two agree because every tile's sum
  is ≥ 0, so scaling distributes over the cores' sums. The pair term is the same expression on both sides up to the order of
  summation. Every program runs to the end without a fault and leaves its three arguments unchanged.
-/
import proofs.«403618_j12678743457990_2_alg».proof.Defs
import proofs.«403618_j12678743457990_2_alg».proof.Proof.Gen.Kernel
import proofs.«403618_j12678743457990_2_alg».proof.Proof.Gen.Kernel.Skeleton
import proofs.«403618_j12678743457990_2_alg».proof.Proof.Gen.Kernel.Launch
import proofs.«403618_j12678743457990_2_alg».proof.Proof.Gen.Kernel.Regions
import proofs.«403618_j12678743457990_2_alg».proof.Proof.Gen.Kernel.Points
import proofs.«403618_j12678743457990_2_alg».proof.Proof.Gen.KernelIdeal
import proofs.«403618_j12678743457990_2_alg».proof.Proof.Gen.KernelIdeal.Skeleton
import proofs.«403618_j12678743457990_2_alg».proof.Proof.Gen.KernelIdeal.Launch
import proofs.«403618_j12678743457990_2_alg».proof.Proof.Gen.KernelIdeal.Regions
import proofs.«403618_j12678743457990_2_alg».proof.Proof.Gen.KernelIdeal.Points
import proofs.«403618_j12678743457990_2_alg».proof.Proof.Gen.ReferenceIdeal
import proofs.«403618_j12678743457990_2_alg».proof.Proof.Gen.ReferenceIdeal.Run
import proofs.«403618_j12678743457990_2_alg».proof.Proof.Gen.ReferenceIdeal.Read
import proofs.«403618_j12678743457990_2_alg».proof.Proof.Gen.Pre_finite_inputs
import proofs.«403618_j12678743457990_2_alg».proof.Proof.WordMainRun
import proofs.«403618_j12678743457990_2_alg».proof.Proof.MainRun
import proofs.«403618_j12678743457990_2_alg».proof.Proof.KernelValue
import proofs.«403618_j12678743457990_2_alg».proof.Proof.RefValue
import proofs.«403618_j12678743457990_2_alg».proof.Proof.PreDecode
import Idealize.ShloMosaic.Adequacy
import Idealize.ShloMosaic.Init

noncomputable section

namespace Cert.Proof

open Idealize.ShloMosaic Idealize.SL.Sem

/-- The word-level kernel runs to the end and leaves its arguments unchanged, from any memory. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end holding `Cert.Loss.G` of the arguments: the labels are classes by the precondition. -/
theorem algebraic : Cert.algebraic_KernelIdeal_ReferenceIdeal := by
  intro m ρ m' ρ' hpre hagree
  have hlab : ∀ c : Dev Cert.KernelIdeal.nD, ∀ b,
      (m ((c.tc : Thread Cert.KernelIdeal.nD Cert.KernelIdeal.τ).loc Cert.KernelIdeal.main_arg0) b).toNat < 1000 :=
    fun c => Cert.Pre_finite_inputs.Decode.label_lt _ _ _ (hpre c)
  refine ⟨fun c => fun _ => Cert.Loss.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.kernel_value m c (hlab c)), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v30_eq _ _ _).trans (Cert.ReferenceIdeal.RefValue.ref_eq _ _ _ (hlab c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
